-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S262144 : Shape := ⟨1, ![262144]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel

variable [Facts]

def fn {F : FTy → Type} [FloatOps F] (main_arg0 : FVec F S262144x256 .f32) (main_arg1 : IVec S262144 32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  main_v3
-- ==== Kernel.lean ====
abbrev S262144x256 : Shape := ⟨2, ![262144, 256]⟩
abbrev S262144 : Shape := ⟨1, ![262144]⟩
abbrev S262144x1 : Shape := ⟨2, ![262144, 1]⟩
abbrev S2x1024x256 : Shape := ⟨3, ![2, 1024, 256]⟩
abbrev S2x1024x128 : Shape := ⟨3, ![2, 1024, 128]⟩
abbrev S2x8x128 : Shape := ⟨3, ![2, 8, 128]⟩
abbrev S2048x256 : Shape := ⟨2, ![2048, 256]⟩
abbrev S2048x1 : Shape := ⟨2, ![2048, 1]⟩
abbrev S1x1024x256 : Shape := ⟨3, ![1, 1024, 256]⟩
abbrev S1x1024x128 : Shape := ⟨3, ![1, 1024, 128]⟩
abbrev S1x8x128 : Shape := ⟨3, ![1, 8, 128]⟩
abbrev S1024x256 : Shape := ⟨2, ![1024, 256]⟩
abbrev S1024x128 : Shape := ⟨2, ![1024, 128]⟩
abbrev S8x128 : Shape := ⟨2, ![8, 128]⟩
abbrev S1x1024 : Shape := ⟨2, ![1, 1024]⟩
abbrev S2048x1024 : Shape := ⟨2, ![2048, 1024]⟩
abbrev S2048 : Shape := ⟨1, ![2048]⟩
abbrev S2048x126 : Shape := ⟨2, ![2048, 126]⟩
abbrev S2048x128 : Shape := ⟨2, ![2048, 128]⟩
abbrev S1 : Shape := ⟨1, ![1]⟩
abbrev S1x1 : Shape := ⟨2, ![1, 1]⟩
abbrev S_ : Shape := ⟨0, ![]⟩
abbrev S1024x1 : Shape := ⟨2, ![1024, 1]⟩
abbrev S1024 : Shape := ⟨1, ![1024]⟩
abbrev S1000 : Shape := ⟨1, ![1000]⟩

abbrev nBuf : Space → Nat
  | .hbm => 51
  | .vmem => 7
  | .smem => 0
  | _ => 0

abbrev bufTy : (tb : Table) → Fin (tcTables nBuf tb) → BufTy
  | .hbm, ⟨0, _⟩ => ⟨S262144x256, .f32⟩
  | .hbm, ⟨1, _⟩ => ⟨S262144, .i32⟩
  | .hbm, ⟨2, _⟩ => ⟨S262144x1, .i32⟩
  | .hbm, ⟨3, _⟩ => ⟨S2x1024x256, .f32⟩
  | .hbm, ⟨4, _⟩ => ⟨S2x1024x128, .f32⟩
  | .hbm, ⟨5, _⟩ => ⟨S2x8x128, .f32⟩
  | .hbm, ⟨6, _⟩ => ⟨S_, .f32⟩
  | .hbm, ⟨7, _⟩ => ⟨S1024x256, .f32⟩
  | .hbm, ⟨8, _⟩ => ⟨S_, .f32⟩
  | .hbm, ⟨9, _⟩ => ⟨S1024x128, .f32⟩
  | .hbm, ⟨10, _⟩ => ⟨S_, .f32⟩
  | .hbm, ⟨11, _⟩ => ⟨S8x128, .f32⟩
  | .hbm, ⟨12, _⟩ => ⟨S1024x1, .f32⟩
  | .hbm, ⟨13, _⟩ => ⟨S1024, .f32⟩
  | .hbm, ⟨14, _⟩ => ⟨S1024x1, .f32⟩
  | .hbm, ⟨15, _⟩ => ⟨S1024, .f32⟩
  | .hbm, ⟨16, _⟩ => ⟨S1x1, .f32⟩
  | .hbm, ⟨17, _⟩ => ⟨S_, .f32⟩
  | .hbm, ⟨18, _⟩ => ⟨S_, .f32⟩
  | .hbm, ⟨19, _⟩ => ⟨S1024, .f32⟩
  | .hbm, ⟨20, _⟩ => ⟨S1024, .f32⟩
  | .hbm, ⟨21, _⟩ => ⟨S1024x256, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S_, .f32⟩
  | .hbm, ⟨30, _⟩ => ⟨S1024, .f32⟩
  | .hbm, ⟨31, _⟩ => ⟨S1024, .i1⟩
  | .hbm, ⟨32, _⟩ => ⟨S1024, .f32⟩
  | .hbm, ⟨33, _⟩ => ⟨S_, .f32⟩
  | .hbm, ⟨34, _⟩ => ⟨S1024, .f32⟩
  | .hbm, ⟨35, _⟩ => ⟨S1024, .f32⟩
  | .hbm, ⟨36, _⟩ => ⟨S1000, .f32⟩
  | .hbm, ⟨37, _⟩ => ⟨S1000, .f32⟩
  | .hbm, ⟨38, _⟩ => ⟨S_, .f32⟩
  | .hbm, ⟨39, _⟩ => ⟨S_, .i1⟩
  | .hbm, ⟨40, _⟩ => ⟨S_, .f32⟩
  | .hbm, ⟨41, _⟩ => ⟨S_, .f32⟩
  | .hbm, ⟨42, _⟩ => ⟨S1000, .f32⟩
  | .hbm, ⟨43, _⟩ => ⟨S1000, .i1⟩
  | .hbm, ⟨44, _⟩ => ⟨S1000, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .local _ .vmem, ⟨0, _⟩ => ⟨S2048x256, .f32⟩
  | .local _ .vmem, ⟨1, _⟩ => ⟨S2048x256, .f32⟩
  | .local _ .vmem, ⟨2, _⟩ => ⟨S2048x1, .i32⟩
  | .local _ .vmem, ⟨3, _⟩ => ⟨S2048x1, .i32⟩
  | .local _ .vmem, ⟨4, _⟩ => ⟨S1x1024x256, .f32⟩
  | .local _ .vmem, ⟨5, _⟩ => ⟨S1x1024x128, .f32⟩
  | .local _ .vmem, ⟨6, _⟩ => ⟨S1x8x128, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_call0_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_cst_10 : Ref sig .tc := ⟨.hbm, 48, rfl⟩
abbrev main_v32 : Ref sig .tc := ⟨.hbm, 49, rfl⟩
abbrev main_v33 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

class Facts₀ : Prop where
  shapeCasts_S262144_S262144x1 : S262144.ShapeCasts S262144x1
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  inb_S2048x256_S2048x256_0_0 : ∀ a, (![0, 0] : Fin 2 → Nat) a + S2048x256.size a ≤ S2048x256.size a
  h_S2048x256 : 0 < S2048x256.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  natLt_1_32 : 1 < 32
  iota_S1x1024_d1_w32 : S1x1024.Iotas .tc 32 [1]
  broadcasts_S2048x1_S2048x1024 : S2048x1.Broadcasts S2048x1024
  broadcasts_S1x1024_S2048x1024 : S1x1024.Broadcasts S2048x1024
  bitsLt_bf16_f32 : FTy.bits .bf16 < FTy.bits .f32
  reduces_S2048x256_S2048 : S2048x256.Reduces [1] S2048
  shapeCasts_S2048_S2048x1 : S2048.ShapeCasts S2048x1
  concatenates_S2048x1_S2048x1_S2048x126_S2048x128_d1 : Shape.Concatenates [S2048x1, S2048x1, S2048x126] S2048x128 1
  reduces_S2048x1_S1 : S2048x1.Reduces [0] S1
  shapeCasts_S1_S1x1 : S1.ShapeCasts S1x1
  shapeCasts_S1x1_S1x1 : S1x1.ShapeCasts S1x1
  broadcasts_S1x1_S8x128 : S1x1.Broadcasts S8x128
  reducesTo_S2x1024x256_S1024x256_d0 : S2x1024x256.ReducesTo [0] S1024x256
  h_S_ : 0 < S_.numel
  reducesTo_S2x1024x128_S1024x128_d0 : S2x1024x128.ReducesTo [0] S1024x128
  reducesTo_S2x8x128_S8x128_d0 : S2x8x128.ReducesTo [0] S8x128
  slices_S1024x128_S1024x1_0_0 : S1024x128.Slices ![0, 0] S1024x1
  shapeCasts_S1024x1_S1024 : S1024x1.ShapeCasts S1024
  slices_S1024x128_S1024x1_0_1 : S1024x128.Slices ![0, 1] S1024x1
  slices_S8x128_S1x1_0_0 : S8x128.Slices ![0, 0] S1x1
  shapeCasts_S1x1_S_ : S1x1.ShapeCasts S_
  bcast_S_S1024 : S_.BroadcastsInDim S1024 (![] : Fin 0 → Fin S1024.rank)
  reducesTo_S1024x256_S1024_d1 : S1024x256.ReducesTo [1] S1024
  slices_S1024_S1000_0 : S1024.Slices ![0] S1000
  bcast_S_S1000 : S_.BroadcastsInDim S1000 (![] : Fin 0 → Fin S1000.rank)
  reducesTo_S1000_S_d0 : S1000.ReducesTo [0] S_
  dot_S2048x1024_S2048x256_S1024x256_0_0_1_1_n_n_wf : DotDims.WF S2048x1024 S2048x256 S1024x256 [0] [0] [1] [1] [] []
  dot_S2048x1024_S2048x128_S1024x128_0_0_1_1_n_n_wf : DotDims.WF S2048x1024 S2048x128 S1024x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S262144x256.size a
  hwx0_0 : ∀ i : grid0.Coords, EltTy.bits .f32 = 32 ∨ (Rect.block (s := S262144x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S262144x1.size a
  hwx0_1 : ∀ i : grid0.Coords, EltTy.bits .i32 = 32 ∨ (Rect.block (s := S262144x1) S2048x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024x256.size a ≤ S2x1024x256.size a
  hwx0_2 : ∀ i : grid0.Coords, EltTy.bits .f32 = 32 ∨ (Rect.block (s := S2x1024x256) S1x1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024x128.size a ≤ S2x1024x128.size a
  hwx0_3 : ∀ i : grid0.Coords, EltTy.bits .f32 = 32 ∨ (Rect.block (s := S2x1024x128) S1x1024x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S2x8x128.size a
  hwx0_4 : ∀ i : grid0.Coords, EltTy.bits .f32 = 32 ∨ (Rect.block (s := S2x8x128) S1x8x128.size (cc0_transform_4 i) (hinb0_4 i)).WholeWords (EltTy.packing .f32)

variable [Facts₀]

def dot_S2048x1024_S2048x256_S1024x256_0_0_1_1_n_n : DotDims S2048x1024 S2048x256 S1024x256 where
  lhsContracting := [0]
  rhsContracting := [0]
  lhsNonContracting := [1]
  rhsNonContracting := [1]
  lhsBatch := []
  rhsBatch := []
  wf := dot_S2048x1024_S2048x256_S1024x256_0_0_1_1_n_n_wf
def dot_S2048x1024_S2048x128_S1024x128_0_0_1_1_n_n : DotDims S2048x1024 S2048x128 S1024x128 where
  lhsContracting := [0]
  rhsContracting := [0]
  lhsNonContracting := [1]
  rhsNonContracting := [1]
  lhsBatch := []
  rhsBatch := []
  wf := dot_S2048x1024_S2048x128_S1024x128_0_0_1_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1024x256.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1024x128.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S1x8x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S262144x256 : Shape := ⟨2, ![262144, 256]⟩
abbrev S262144 : Shape := ⟨1, ![262144]⟩
abbrev S_ : Shape := ⟨0, ![]⟩
abbrev S1000 : Shape := ⟨1, ![1000]⟩
abbrev S262144x1 : Shape := ⟨2, ![262144, 1]⟩
abbrev S1000x256 : Shape := ⟨2, ![1000, 256]⟩
abbrev S1000x1 : Shape := ⟨2, ![1000, 1]⟩

abbrev nBuf : Space → Nat
  | .hbm => 66
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S262144, .i32⟩
  | .hbm, ⟨2, _⟩ => ⟨S_, .i32⟩
  | .hbm, ⟨3, _⟩ => ⟨S262144, .i32⟩
  | .hbm, ⟨4, _⟩ => ⟨S262144, .i1⟩
  | .hbm, ⟨5, _⟩ => ⟨S_, .i32⟩
  | .hbm, ⟨6, _⟩ => ⟨S_, .i32⟩
  | .hbm, ⟨7, _⟩ => ⟨S262144, .i32⟩
  | .hbm, ⟨8, _⟩ => ⟨S262144, .i32⟩
  | .hbm, ⟨9, _⟩ => ⟨S262144, .f32⟩
  | .hbm, ⟨10, _⟩ => ⟨S_, .f32⟩
  | .hbm, ⟨11, _⟩ => ⟨S1000, .f32⟩
  | .hbm, ⟨12, _⟩ => ⟨S262144x1, .i32⟩
  | .hbm, ⟨13, _⟩ => ⟨S1000, .f32⟩
  | .hbm, ⟨14, _⟩ => ⟨S262144x1, .f32⟩
  | .hbm, ⟨15, _⟩ => ⟨S262144x256, .f32⟩
  | .hbm, ⟨16, _⟩ => ⟨S262144x256, .f32⟩
  | .hbm, ⟨17, _⟩ => ⟨S_, .f32⟩
  | .hbm, ⟨18, _⟩ => ⟨S1000x256, .f32⟩
  | .hbm, ⟨19, _⟩ => ⟨S262144x1, .i32⟩
  | .hbm, ⟨20, _⟩ => ⟨S1000x256, .f32⟩
  | .hbm, ⟨21, _⟩ => ⟨S_, .f32⟩
  | .hbm, ⟨22, _⟩ => ⟨S1000, .f32⟩
  | .hbm, ⟨23, _⟩ => ⟨S1000, .f32⟩
  | .hbm, ⟨24, _⟩ => ⟨S1000x1, .f32⟩
  | .hbm, ⟨25, _⟩ => ⟨S1000x256, .f32⟩
  | .hbm, ⟨26, _⟩ => ⟨S1000x256, .f32⟩
  | .hbm, ⟨27, _⟩ => ⟨S_, .i32⟩
  | .hbm, ⟨28, _⟩ => ⟨S262144, .i32⟩
  | .hbm, ⟨29, _⟩ => ⟨S262144, .i1⟩
  | .hbm, ⟨30, _⟩ => ⟨S_, .i32⟩
  | .hbm, ⟨31, _⟩ => ⟨S262144, .i32⟩
  | .hbm, ⟨32, _⟩ => ⟨S262144, .i32⟩
  | .hbm, ⟨33, _⟩ => ⟨S262144, .i32⟩
  | .hbm, ⟨34, _⟩ => ⟨S262144x1, .i32⟩
  | .hbm, ⟨35, _⟩ => ⟨S262144x256, .f32⟩
  | .hbm, ⟨36, _⟩ => ⟨S262144x256, .f32⟩
  | .hbm, ⟨37, _⟩ => ⟨S262144x256, .f32⟩
  | .hbm, ⟨38, _⟩ => ⟨S_, .f32⟩
  | .hbm, ⟨39, _⟩ => ⟨S262144, .f32⟩
  | .hbm, ⟨40, _⟩ => ⟨S262144, .f32⟩
  | .hbm, ⟨41, _⟩ => ⟨S_, .f32⟩
  | .hbm, ⟨42, _⟩ => ⟨S1000, .f32⟩
  | .hbm, ⟨43, _⟩ => ⟨S262144x1, .i32⟩
  | .hbm, ⟨44, _⟩ => ⟨S1000, .f32⟩
  | .hbm, ⟨45, _⟩ => ⟨S_, .f32⟩
  | .hbm, ⟨46, _⟩ => ⟨S1000, .f32⟩
  | .hbm, ⟨47, _⟩ => ⟨S1000, .i1⟩
  | .hbm, ⟨48, _⟩ => ⟨S1000, .f32⟩
  | .hbm, ⟨49, _⟩ => ⟨S_, .f32⟩
  | .hbm, ⟨50, _⟩ => ⟨S1000, .f32⟩
  | .hbm, ⟨51, _⟩ => ⟨S1000, .f32⟩
  | .hbm, ⟨52, _⟩ => ⟨S262144, .i1⟩
  | .hbm, ⟨53, _⟩ => ⟨S_, .i1⟩
  | .hbm, ⟨54, _⟩ => ⟨S_, .i1⟩
  | .hbm, ⟨55, _⟩ => ⟨S_, .f32⟩
  | .hbm, ⟨56, _⟩ => ⟨S_, .f32⟩
  | .hbm, ⟨57, _⟩ => ⟨S1000, .f32⟩
  | .hbm, ⟨58, _⟩ => ⟨S1000, .i1⟩
  | .hbm, ⟨59, _⟩ => ⟨S1000, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_c_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_call1_v0 : Ref sig .tc := ⟨.hbm, 50, rfl⟩
abbrev main_v35 : Ref sig .tc := ⟨.hbm, 51, rfl⟩
abbrev main_v36 : Ref sig .tc := ⟨.hbm, 52, rfl⟩
abbrev main_c_9 : Ref sig .tc := ⟨.hbm, 53, rfl⟩
abbrev main_v37 : Ref sig .tc := ⟨.hbm, 54, rfl⟩
abbrev main_v38 : Ref sig .tc := ⟨.hbm, 55, rfl⟩
abbrev main_cst_10 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_11 : Ref sig .tc := ⟨.hbm, 60, rfl⟩
abbrev main_v42 : Ref sig .tc := ⟨.hbm, 61, rfl⟩
abbrev main_v43 : Ref sig .tc := ⟨.hbm, 62, rfl⟩
abbrev main_cst_12 : Ref sig .tc := ⟨.hbm, 63, rfl⟩
abbrev main_v44 : Ref sig .tc := ⟨.hbm, 64, rfl⟩
abbrev main_v45 : Ref sig .tc := ⟨.hbm, 65, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S_S1000 : S_.BroadcastsInDim S1000 (![] : Fin 0 → Fin S1000.rank)
  bcast_S262144_S262144x1_0 : S262144.BroadcastsInDim S262144x1 (![0] : Fin 1 → Fin S262144x1.rank)
  bcast_S262144x1_S262144x256_0_1 : S262144x1.BroadcastsInDim S262144x256 (![0, 1] : Fin 2 → Fin S262144x256.rank)
  bcast_S_S1000x256 : S_.BroadcastsInDim S1000x256 (![] : Fin 0 → Fin S1000x256.rank)
  bcast_S1000_S1000x1_0 : S1000.BroadcastsInDim S1000x1 (![0] : Fin 1 → Fin S1000x1.rank)
  bcast_S1000x1_S1000x256_0_1 : S1000x1.BroadcastsInDim S1000x256 (![0, 1] : Fin 2 → Fin S1000x256.rank)
  reducesTo_S262144x256_S262144_d1 : S262144x256.ReducesTo [1] S262144
  h_S_ : 0 < S_.numel
  reducesTo_S262144_S_d0 : S262144.ReducesTo [0] S_
  reducesTo_S1000_S_d0 : S1000.ReducesTo [0] S_
  scatter_S1000_S262144x1_S262144_n_0_0_1_wf : ScatterDims.WF S1000 S262144x1 S262144 [] [0] [0] 1
  scatter_S1000x256_S262144x1_S262144x256_1_0_0_1_wf : ScatterDims.WF S1000x256 S262144x1 S262144x256 [1] [0] [0] 1
  gather_S1000x256_S262144x1_S262144x256_1_0_n_n_0_1_1256_wf : GatherDims.WF S1000x256 S262144x1 S262144x256 [1] [0] [] [0] [] 1 ![1, 256]

variable [Facts₀]

def scatter_S1000_S262144x1_S262144_n_0_0_1 : ScatterDims S1000 S262144x1 S262144 where
  updateWindowDims := []
  insertedWindowDims := [0]
  scatterDimsToOperandDims := [0]
  indexVectorDim := 1
  wf := scatter_S1000_S262144x1_S262144_n_0_0_1_wf
def scatter_S1000x256_S262144x1_S262144x256_1_0_0_1 : ScatterDims S1000x256 S262144x1 S262144x256 where
  updateWindowDims := [1]
  insertedWindowDims := [0]
  scatterDimsToOperandDims := [0]
  indexVectorDim := 1
  wf := scatter_S1000x256_S262144x1_S262144x256_1_0_0_1_wf
def gather_S1000x256_S262144x1_S262144x256_1_0_n_n_0_1_1256 : GatherDims S1000x256 S262144x1 S262144x256 where
  offsetDims := [1]
  collapsedSliceDims := [0]
  operandBatchingDims := []
  startIndicesBatchingDims := []
  startIndexMap := [0]
  indexVectorDim := 1
  sliceSizes := ![1, 256]
  wf := gather_S1000x256_S262144x1_S262144x256_1_0_n_n_0_1_1256_wf

class Facts : Prop extends Facts₀ where

variable [Facts]
-- ==== Proof.KernelBody.lean ====
/-
  What one run of the kernel body leaves in the three accumulators, as the body's own arithmetic.
  At a point that resets (case A) each accumulator ends at the step applied to the zero block the reset stores;
  at any other point (case B) at the step applied to what the point before left.
-/
import proofs.«401973_j3547642986610_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Body

open Cert.KernelIdeal Cert.KernelIdeal.Gen

variable {F : FTy → Type} [FloatOps F]

/-- The all-zero offsets of a rank-3 block and of a rank-2 block, as constant functions: every load and store of the
    body goes through the whole-block rectangle at these offsets. -/
private theorem zeros3 : (![0, 0, 0] : Fin 3 → Nat) = fun _ => 0 := funext fun a => by fin_cases a <;> rfl
private theorem zeros2 : (![0, 0] : Fin 2 → Nat) = fun _ => 0 := funext fun a => by fin_cases a <;> rfl

/-- Resetting point, row-sum accumulator: the zero block is stored, read back, and the step's product is added to it;
    the last store covers the block, so the block ends at that payload. -/
theorem out_A_2 (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S1x1024x256 .f32) (harg4 : arg4.IsWhole) (arg5 : Memref sig .tc .vmem S1x1024x128 .f32) (harg5 : arg5.IsWhole) (arg6 : Memref sig .tc .vmem S1x8x128 .f32) (harg6 : arg6.IsWhole) (hc0 : cond0_0 i)
    (x0 : Vec F S2048x256 .f32) (x1 : Vec F S2048x1 .i32) :
    out0_A_2 c i arg2 harg2 arg3 harg3 arg4 harg4 arg5 harg5 arg6 harg6 hc0 x0 x1 = k0_pay10 x0 x1 (k0_pay3 (F := F)) := by
  unfold out0_A_2
  rw [View.read_writes_eq_canon _ _ _ (cover0_A_2 c i arg2 harg2 arg3 harg3 arg4 harg4 arg5 harg5 arg6 harg6 hc0 x0 x1)]
  unfold kernelRun0_A
  dsimp only
  sl_unfold_words
  rw [View.canon_cons_unit_zero (S := S1x1024x256) zeros3, View.readCov_unit_zero (S := S1x1024x256) _ zeros3]
  simp only [View.readAt_eq_ld, harg2.read_unread, harg3.read_unread,
    View.ld_unit_zero (S := S2048x256) zeros2, View.ld_unit_zero (S := S2048x1) zeros2]

/-- Resetting point, augmented accumulator (counts and squared norms): the zero block stored and read back, then the
    step's product added; the covering last store is what remains. -/
theorem out_A_3 (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S1x1024x256 .f32) (harg4 : arg4.IsWhole) (arg5 : Memref sig .tc .vmem S1x1024x128 .f32) (harg5 : arg5.IsWhole) (arg6 : Memref sig .tc .vmem S1x8x128 .f32) (harg6 : arg6.IsWhole) (hc0 : cond0_0 i)
    (x0 : Vec F S2048x256 .f32) (x1 : Vec F S2048x1 .i32) :
    out0_A_3 c i arg2 harg2 arg3 harg3 arg4 harg4 arg5 harg5 arg6 harg6 hc0 x0 x1 = k0_pay1 (k0_pay9 x0 x1) (k0_pay4 (F := F)) := by
  unfold out0_A_3
  rw [View.read_writes_eq_canon _ _ _ (cover0_A_3 c i arg2 harg2 arg3 harg3 arg4 harg4 arg5 harg5 arg6 harg6 hc0 x0 x1)]
  unfold kernelRun0_A
  dsimp only
  sl_unfold_words
  rw [View.canon_cons_unit_zero (S := S1x1024x128) zeros3, View.readCov_unit_zero (S := S1x1024x128) _ zeros3]
  simp only [View.readAt_eq_ld, harg2.read_unread, harg3.read_unread,
    View.ld_unit_zero (S := S2048x256) zeros2, View.ld_unit_zero (S := S2048x1) zeros2]

/-- Resetting point, invalid-row counter: the zero block stored and read back, then the step's count of negative ids
    added; the covering last store is what remains. -/
theorem out_A_4 (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S1x1024x256 .f32) (harg4 : arg4.IsWhole) (arg5 : Memref sig .tc .vmem S1x1024x128 .f32) (harg5 : arg5.IsWhole) (arg6 : Memref sig .tc .vmem S1x8x128 .f32) (harg6 : arg6.IsWhole) (hc0 : cond0_0 i)
    (x0 : Vec F S2048x256 .f32) (x1 : Vec F S2048x1 .i32) :
    out0_A_4 c i arg2 harg2 arg3 harg3 arg4 harg4 arg5 harg5 arg6 harg6 hc0 x0 x1 = k0_pay2 (k0_pay7 x1) (k0_pay5 (F := F)) := by
  unfold out0_A_4
  rw [View.read_writes_eq_canon _ _ _ (cover0_A_4 c i arg2 harg2 arg3 harg3 arg4 harg4 arg5 harg5 arg6 harg6 hc0 x0 x1)]
  unfold kernelRun0_A
  dsimp only
  sl_unfold_words
  rw [View.canon_cons_unit_zero (S := S1x8x128) zeros3, View.readCov_unit_zero (S := S1x8x128) _ zeros3]
  simp only [View.readAt_eq_ld, harg2.read_unread, harg3.read_unread,
    View.ld_unit_zero (S := S2048x256) zeros2, View.ld_unit_zero (S := S2048x1) zeros2]

/-- Any other point, row-sum accumulator: the one covering store adds the step's product to what the block held. -/
theorem out_B_2 (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S1x1024x256 .f32) (harg4 : arg4.IsWhole) (arg5 : Memref sig .tc .vmem S1x1024x128 .f32) (harg5 : arg5.IsWhole) (arg6 : Memref sig .tc .vmem S1x8x128 .f32) (harg6 : arg6.IsWhole) (hc0 : ¬cond0_0 i)
    (x0 : Vec F S2048x256 .f32) (x1 : Vec F S2048x1 .i32) (xo2 : Vec F S1x1024x256 .f32) (xo3 : Vec F S1x1024x128 .f32) (xo4 : Vec F S1x8x128 .f32) :
    out0_B_2 c i arg2 harg2 arg3 harg3 arg4 harg4 arg5 harg5 arg6 harg6 hc0 x0 x1 xo2 xo3 xo4 = k0_pay10 x0 x1 xo2 := by
  unfold out0_B_2
  rw [View.read_writes_eq_canon _ _ _ (cover0_B_2 c i arg2 harg2 arg3 harg3 arg4 harg4 arg5 harg5 arg6 harg6 hc0 x0 x1 xo2 xo3 xo4)]
  unfold kernelRun0_B
  dsimp only
  sl_unfold_words
  rw [View.canon_unit_zero zeros3]
  simp only [View.readAt_eq_ld, harg2.read_unread, harg3.read_unread, harg4.read_unread, harg5.read_unread, harg6.read_unread,
    View.ld_unit_zero (S := S2048x256) zeros2, View.ld_unit_zero (S := S2048x1) zeros2, View.ld_unit_zero (S := S1x1024x256) zeros3]

/-- Any other point, augmented accumulator: the one covering store adds the step's product to what the block held. -/
theorem out_B_3 (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S1x1024x256 .f32) (harg4 : arg4.IsWhole) (arg5 : Memref sig .tc .vmem S1x1024x128 .f32) (harg5 : arg5.IsWhole) (arg6 : Memref sig .tc .vmem S1x8x128 .f32) (harg6 : arg6.IsWhole) (hc0 : ¬cond0_0 i)
    (x0 : Vec F S2048x256 .f32) (x1 : Vec F S2048x1 .i32) (xo2 : Vec F S1x1024x256 .f32) (xo3 : Vec F S1x1024x128 .f32) (xo4 : Vec F S1x8x128 .f32) :
    out0_B_3 c i arg2 harg2 arg3 harg3 arg4 harg4 arg5 harg5 arg6 harg6 hc0 x0 x1 xo2 xo3 xo4 = k0_pay1 (k0_pay9 x0 x1) xo3 := by
  unfold out0_B_3
  rw [View.read_writes_eq_canon _ _ _ (cover0_B_3 c i arg2 harg2 arg3 harg3 arg4 harg4 arg5 harg5 arg6 harg6 hc0 x0 x1 xo2 xo3 xo4)]
  unfold kernelRun0_B
  dsimp only
  sl_unfold_words
  rw [View.canon_unit_zero zeros3]
  simp only [View.readAt_eq_ld, harg2.read_unread, harg3.read_unread, harg4.read_unread, harg5.read_unread, harg6.read_unread,
    View.ld_unit_zero (S := S2048x256) zeros2, View.ld_unit_zero (S := S2048x1) zeros2, View.ld_unit_zero (S := S1x1024x128) zeros3]

/-- Any other point, invalid-row counter: the one covering store adds the step's count to what the block held. -/
theorem out_B_4 (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S1x1024x256 .f32) (harg4 : arg4.IsWhole) (arg5 : Memref sig .tc .vmem S1x1024x128 .f32) (harg5 : arg5.IsWhole) (arg6 : Memref sig .tc .vmem S1x8x128 .f32) (harg6 : arg6.IsWhole) (hc0 : ¬cond0_0 i)
    (x0 : Vec F S2048x256 .f32) (x1 : Vec F S2048x1 .i32) (xo2 : Vec F S1x1024x256 .f32) (xo3 : Vec F S1x1024x128 .f32) (xo4 : Vec F S1x8x128 .f32) :
    out0_B_4 c i arg2 harg2 arg3 harg3 arg4 harg4 arg5 harg5 arg6 harg6 hc0 x0 x1 xo2 xo3 xo4 = k0_pay2 (k0_pay7 x1) xo4 := by
  unfold out0_B_4
  rw [View.read_writes_eq_canon _ _ _ (cover0_B_4 c i arg2 harg2 arg3 harg3 arg4 harg4 arg5 harg5 arg6 harg6 hc0 x0 x1 xo2 xo3 xo4)]
  unfold kernelRun0_B
  dsimp only
  sl_unfold_words
  rw [View.canon_unit_zero zeros3]
  simp only [View.readAt_eq_ld, harg2.read_unread, harg3.read_unread, harg4.read_unread, harg5.read_unread, harg6.read_unread,
    View.ld_unit_zero (S := S2048x256) zeros2, View.ld_unit_zero (S := S2048x1) zeros2, View.ld_unit_zero (S := S1x8x128) zeros3]

end Cert.KernelIdeal.Body

end
-- ==== Proof.Spec.lean ====
/-
  The mathematics both programs are compared through, with no program in sight.

  Input: rows `x : [262144, 256]` of extended reals and one 32-bit id per row. A row is VALID when its id, read as a
  signed integer, is non-negative; a valid row BELONGS to id `k` when its id is `k`.

  The one-pass side keeps, per id `k`, the number of its rows (`cntK`), the sum of its rows (`sumK`), the sum of its rows'
  squared norms (`sqK`), and the number of invalid rows (`invK`); from these
  `qK k = max (sqK k - (Σ_d sumK k d ^ 2) / max (cntK k) 1) 0`.
  The two-pass side scatters: row `n` goes to segment `segR n` (its id when valid, `0` otherwise) with weight `wR n`
  (`1` when valid, `0` otherwise); `meanR k = sumR k / max (cntR k) 1`, and `qR k` adds, over the rows of segment `k`,
  the weighted squared distance of the row to the mean of ITS segment (read at the segment clamped to `999`).
  Both end in the same `lossOf`: the sum over the ids `k < 1000` with `cnt k > 0` of `q k / max (cnt k) 1`, divided by the
  number of such ids plus `h` (one more when some row is invalid).
-/
import Idealize.ShloMosaic.PureOps.Ideal
import Idealize.ShloMosaic.PureOps.Ideal.Laws
import Idealize.ShloMosaic.Lib.ValueIdx

noncomputable section

open scoped BigOperators

namespace Cert.SegVar

open Idealize.ShloMosaic Idealize.ShloMosaic.ValueIdx

/-- The rows' shape, the ids' shape, and the shape of the per-id vectors that enter the loss. -/
abbrev SX : Shape := ⟨2, ![262144, 256]⟩
abbrev SI : Shape := ⟨1, ![262144]⟩
abbrev SK : Shape := ⟨1, ![1000]⟩

/-- The words `+0.0` and `1.0` as extended reals. -/
abbrev zeroW : EReal := Ideal.ofBits .f32 0x00000000#32
abbrev oneW : EReal := Ideal.ofBits .f32 0x3F800000#32

/-! ## Words -/

/-- The weight of an id word `w` on id `k`: one when `w` is non-negative (signed) and equals `k`, else zero. -/
def hotW (w : BitVec 32) (k : ℕ) : EReal := if 0 ≤ w.toInt ∧ w.toNat = k then 1 else 0
/-- One for a negative id word, zero otherwise. -/
def negW (w : BitVec 32) : EReal := if 0 ≤ w.toInt then 0 else 1

/-! ## Rows and blocks of rows -/

/-- Row `r` of block `p` of 2048 rows (the blocks `p < 128` tile the 262144 rows). -/
def rowOf (p : ℕ) (r : Fin 2048) : Fin 262144 := ⟨(p * 2048 + r.val) % 262144, Nat.mod_lt _ (by decide)⟩

variable (x : SX.Idx → EReal) (ids : SI.Idx → BitVec 32)

/-- Row `n` is valid. -/
def valid (n : Fin 262144) : Prop := 0 ≤ (ids (ix1 n)).toInt
instance (n : Fin 262144) : Decidable (valid ids n) := by unfold valid; infer_instance

/-- The weight of row `n` on id `k`. -/
def hot (n : Fin 262144) (k : ℕ) : EReal := hotW (ids (ix1 n)) k

/-- What row `n` contributes to the 128 augmented columns: a one, its squared norm, then zeros. -/
def augAt (n : Fin 262144) (j : Fin 128) : EReal :=
  if j.val = 0 then 1 else if j.val = 1 then ∑ d : Fin 256, x (ix2 n d) * x (ix2 n d) else 0

/-! ## The one-pass statistics, per block of rows and in all -/

def blkSum (p k : ℕ) (d : Fin 256) : EReal := ∑ r : Fin 2048, hot ids (rowOf p r) k * x (ix2 (rowOf p r) d)
def blkAug (p k : ℕ) (j : Fin 128) : EReal := ∑ r : Fin 2048, hot ids (rowOf p r) k * augAt x (rowOf p r) j
def blkInv (p : ℕ) : EReal := ∑ r : Fin 2048, negW (ids (ix1 (rowOf p r)))

def cntK (k : ℕ) : EReal := ∑ n : Fin 262144, hot ids n k
def sumK (k : ℕ) (d : Fin 256) : EReal := ∑ n : Fin 262144, hot ids n k * x (ix2 n d)
def sqK (k : ℕ) : EReal := ∑ n : Fin 262144, hot ids n k * ∑ d : Fin 256, x (ix2 n d) * x (ix2 n d)
def invK : EReal := ∑ n : Fin 262144, negW (ids (ix1 n))

/-- The one-pass squared deviation of id `k`. -/
def qK (k : ℕ) : EReal :=
  max (sqK x ids k - Ideal.div (∑ d : Fin 256, sumK x ids k d * sumK x ids k d) (max (cntK ids k) oneW)) zeroW
/-- One when some row is invalid, by the count of invalid rows. -/
def hK : EReal := (((Ideal.cmp .ogt (invK ids) zeroW).toNat : ℝ) : EReal)

/-! ## The two-pass statistics -/

def wR (n : Fin 262144) : EReal := if valid ids n then 1 else 0
def segR (n : Fin 262144) : ℕ := if valid ids n then (ids (ix1 n)).toNat else 0

def cntR (k : ℕ) : EReal := ∑ n ∈ Finset.univ.filter (fun n : Fin 262144 => segR ids n = k), wR ids n
def sumR (k : ℕ) (d : Fin 256) : EReal :=
  ∑ n ∈ Finset.univ.filter (fun n : Fin 262144 => segR ids n = k), x (ix2 n d) * wR ids n
def meanR (k : ℕ) (d : Fin 256) : EReal := Ideal.div (sumR x ids k d) (max (cntR ids k) oneW)
def devR (n : Fin 262144) : EReal :=
  (∑ d : Fin 256, (x (ix2 n d) - meanR x ids (min (segR ids n) 999) d) * (x (ix2 n d) - meanR x ids (min (segR ids n) 999) d))
    * wR ids n
def qR (k : ℕ) : EReal := ∑ n ∈ Finset.univ.filter (fun n : Fin 262144 => segR ids n = k), devR x ids n
/-- One when some row is invalid. -/
def hR : EReal := if ∃ n : Fin 262144, ¬valid ids n then 1 else 0

/-! ## The loss both sides end in -/

/-- From the per-id counts `cnt`, per-id squared deviations `q` and the extra id `h`. -/
def lossOf (cnt q : ℕ → EReal) (h : EReal) : EReal :=
  Ideal.div
    (zeroW + ∑ j : SK.Idx, Scalar.select (Ideal.cmp .ogt (cnt (j 0).val) zeroW)
        (Ideal.div (q (j 0).val) (max (cnt (j 0).val) oneW)) zeroW)
    ((zeroW + ∑ j : SK.Idx, (((Ideal.cmp .ogt (cnt (j 0).val) zeroW).toNat : ℝ) : EReal)) + h)

/-- The loss reads `cnt` and `q` at the ids below 1000 only. -/
theorem lossOf_congr {cnt cnt' q q' : ℕ → EReal} {h h' : EReal}
    (hc : ∀ k, k < 1000 → cnt k = cnt' k) (hq : ∀ k, k < 1000 → q k = q' k) (hh : h = h') :
    lossOf cnt q h = lossOf cnt' q' h' := by
  subst hh
  have e1 : ∀ j : SK.Idx, cnt (j 0).val = cnt' (j 0).val := fun j => hc _ (j 0).isLt
  have e2 : ∀ j : SK.Idx, q (j 0).val = q' (j 0).val := fun j => hq _ (j 0).isLt
  unfold lossOf
  simp only [e1, e2]

end Cert.SegVar

end
-- ==== Proof.KernelPay.lean ====
/-
  The body's three steps read at one element, over the extended reals.
  With `x0` the block of 2048 rows, `x1` their id words and `prev` the accumulator before the step:
    sums  [k, d] ← prev + Σ_r hotW (id r) k · x0 [r, d]          (the one-hot matrix product)
    aug   [k, j] ← prev + Σ_r hotW (id r) k · (1, ‖x0 r‖², 0, …)[j]
    misc  [a, b] ← prev + Σ_r negW (id r)                          (the number of invalid rows, everywhere)
  and the reset's blocks are zero.
-/
import proofs.«401973_j3547642986610_3_alg».proof.Proof.Gen.KernelIdeal.Skeleton
import proofs.«401973_j3547642986610_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.Pay

open Cert.KernelIdeal Cert.KernelIdeal.Gen Cert.SegVar

/-- What row `r` of a block contributes to the 128 augmented columns: a one, its squared norm, then zeros. -/
def augW (x0 : Vec Ideal S2048x256 .f32) (r : Fin 2048) (j : Fin 128) : EReal :=
  if j.val = 0 then 1 else if j.val = 1 then ∑ d : Fin 256, x0 (ix2 r d) * x0 (ix2 r d) else 0

/-! ## Layout: a column and a single element broadcast over a rectangle -/

section Layout
variable {α : Type}

/-- A column `[R, 1]` broadcast to `[R, n]` reads, at `(r, l)`, the column at row `r`. -/
theorem bcast_col {R n : ℕ} (v : (⟨2, ![R, 1]⟩ : Shape).Idx → α) (h : (⟨2, ![R, 1]⟩ : Shape).Broadcasts ⟨2, ![R, n]⟩)
    (hR : R ≠ 1) (r : Fin R) (l : Fin n) : broadcastTo ⟨2, ![R, n]⟩ v h (ix2 r l) = v (ix2 r (0 : Fin 1)) := by
  refine broadcastTo_apply v h (ix2 r l) (ix2 r (0 : Fin 1)) fun ax => ?_
  match ax with
  | ⟨0, _⟩ =>
    show r.val = if R = 1 then 0 else r.val
    rw [if_neg hR]
  | ⟨1, _⟩ => rfl

/-- A `[1, 1]` array broadcast to `[m, n]` reads its one element everywhere. -/
theorem bcast_unit {m n : ℕ} (v : (⟨2, ![1, 1]⟩ : Shape).Idx → α) (h : (⟨2, ![1, 1]⟩ : Shape).Broadcasts ⟨2, ![m, n]⟩)
    (a : Fin m) (b : Fin n) : broadcastTo ⟨2, ![m, n]⟩ v h (ix2 a b) = v (ix2 (0 : Fin 1) (0 : Fin 1)) := by
  refine broadcastTo_apply v h (ix2 a b) (ix2 (0 : Fin 1) (0 : Fin 1)) fun ax => ?_
  match ax with
  | ⟨0, _⟩ => rfl
  | ⟨1, _⟩ => rfl

end Layout

/-! ## Words -/

theorem ofBool_eq_one (b : Bool) : BitVec.ofBool b = 1#1 ↔ b = true := by cases b <;> decide

/-- The signed comparison with zero says the word is non-negative. -/
theorem sge_zero (w : BitVec 32) : IntOp.cmpi .sge w 0#32 = 1#1 ↔ 0 ≤ w.toInt := by
  have h : IntOp.cmpi .sge w 0#32 = BitVec.ofBool ((0#32 : BitVec 32).sle w) := rfl
  rw [h, ofBool_eq_one, BitVec.sle_iff_toInt_le, BitVec.toInt_zero]

theorem cmpi_eq_one {a b : BitVec 32} : IntOp.cmpi .eq a b = 1#1 ↔ a = b := by
  have h : IntOp.cmpi .eq a b = BitVec.ofBool (a == b) := rfl
  rw [h, ofBool_eq_one, beq_iff_eq]

theorem sitofp_bit_one : FloatOps.sitofp (F := Ideal) .f32 ((1#1 : BitVec 1).setWidth 32) = (1 : EReal) := by
  show ((((1#1 : BitVec 1).setWidth 32).toInt : ℝ) : EReal) = 1
  rw [show ((1#1 : BitVec 1).setWidth 32).toInt = 1 from by decide]
  simp

theorem sitofp_bit_zero : FloatOps.sitofp (F := Ideal) .f32 ((0#1 : BitVec 1).setWidth 32) = (0 : EReal) := by
  show ((((0#1 : BitVec 1).setWidth 32).toInt : ℝ) : EReal) = 0
  rw [show ((0#1 : BitVec 1).setWidth 32).toInt = 0 from by decide]
  simp

/-- The one-hot entry as a word computation: select on "the clamped id equals `k`" of the validity bit as a float. -/
theorem hot_word (w : BitVec 32) (k : ℕ) (hk : k < 1024) :
    Scalar.select (IntOp.cmpi .eq (Scalar.select (IntOp.cmpi .sge w 0#32) w 0#32) (BitVec.ofNat 32 k))
      (FloatOps.sitofp (F := Ideal) .f32 ((IntOp.cmpi .sge w 0#32).setWidth 32)) (Ideal.ofBits .f32 0x00000000#32)
      = hotW w k := by
  unfold hotW
  rw [Ideal.ofBits_zero_f32]
  by_cases h : 0 ≤ w.toInt
  · have hb : IntOp.cmpi .sge w 0#32 = 1#1 := (sge_zero w).mpr h
    rw [hb, select_one, sitofp_bit_one]
    by_cases hk' : w.toNat = k
    · have he : IntOp.cmpi .eq w (BitVec.ofNat 32 k) = 1#1 := by
        rw [cmpi_eq_one]
        apply BitVec.eq_of_toNat_eq
        rw [BitVec.toNat_ofNat, hk']
        omega
      rw [he, select_one, if_pos ⟨h, hk'⟩]
    · have he : IntOp.cmpi .eq w (BitVec.ofNat 32 k) = 0#1 := eq_zero_of_ne_one (fun h1 => hk' (by
        rw [cmpi_eq_one.mp h1, BitVec.toNat_ofNat]; omega))
      rw [he, select_zero, if_neg (fun hh => hk' hh.2)]
  · have hb : IntOp.cmpi .sge w 0#32 = 0#1 := eq_zero_of_ne_one (fun h1 => h ((sge_zero w).mp h1))
    rw [hb, select_zero, sitofp_bit_zero, if_neg (fun hh => h hh.1)]
    unfold Scalar.select
    split <;> rfl

/-- The invalid-row indicator as a word computation. -/
theorem neg_word (w : BitVec 32) :
    FloatOps.sitofp (F := Ideal) .f32 ((IntOp.xori (IntOp.cmpi .sge w 0#32) 1#1).setWidth 32) = negW w := by
  unfold negW
  by_cases h : 0 ≤ w.toInt
  · have hb : IntOp.cmpi .sge w 0#32 = 1#1 := (sge_zero w).mpr h
    rw [hb, if_pos h, show IntOp.xori (1#1 : BitVec 1) 1#1 = 0#1 from by decide, sitofp_bit_zero]
  · have hb : IntOp.cmpi .sge w 0#32 = 0#1 := eq_zero_of_ne_one (fun h1 => h ((sge_zero w).mp h1))
    rw [hb, if_neg h, show IntOp.xori (0#1 : BitVec 1) 1#1 = 1#1 from by decide, sitofp_bit_one]

/-! ## The reset's blocks -/

theorem pay3_apply (i : S1x1024x256.Idx) : k0_pay3 (F := Ideal) i = 0 := by
  obtain ⟨u, k, d, rfl⟩ : ∃ (u : Fin 1) (k : Fin 1024) (d : Fin 256), i = ix3 u k d := ⟨i 0, i 1, i 2, eq_ix3 i⟩
  unfold k0_pay3
  refine (shapeCast_ab_1ab_apply _ _ u k d).trans ?_
  exact Ideal.ofBits_zero_f32
theorem pay4_apply (i : S1x1024x128.Idx) : k0_pay4 (F := Ideal) i = 0 := by
  obtain ⟨u, k, d, rfl⟩ : ∃ (u : Fin 1) (k : Fin 1024) (d : Fin 128), i = ix3 u k d := ⟨i 0, i 1, i 2, eq_ix3 i⟩
  unfold k0_pay4
  refine (shapeCast_ab_1ab_apply _ _ u k d).trans ?_
  exact Ideal.ofBits_zero_f32
theorem pay5_apply (i : S1x8x128.Idx) : k0_pay5 (F := Ideal) i = 0 := by
  obtain ⟨u, k, d, rfl⟩ : ∃ (u : Fin 1) (k : Fin 8) (d : Fin 128), i = ix3 u k d := ⟨i 0, i 1, i 2, eq_ix3 i⟩
  unfold k0_pay5
  refine (shapeCast_ab_1ab_apply _ _ u k d).trans ?_
  exact Ideal.ofBits_zero_f32

/-! ## The two matrix products: both operands contracted over their rows -/

theorem lhs256_0 (i : S1024x256.Idx) (q : dot_S2048x1024_S2048x256_S1024x256_0_0_1_1_n_n.contr.Idx) :
    (dot_S2048x1024_S2048x256_S1024x256_0_0_1_1_n_n.lhsIdx i q 0).val = (q ⟨0, by decide⟩).val :=
  dot_S2048x1024_S2048x256_S1024x256_0_0_1_1_n_n.lhsIdx_val_of_single rfl i q
theorem lhs256_1 (i : S1024x256.Idx) (q : dot_S2048x1024_S2048x256_S1024x256_0_0_1_1_n_n.contr.Idx) :
    (dot_S2048x1024_S2048x256_S1024x256_0_0_1_1_n_n.lhsIdx i q 1).val = (i 0).val := by
  unfold DotDims.lhsIdx
  rw [dif_neg (show ¬(1 : Fin S2048x1024.rank) ∈ dot_S2048x1024_S2048x256_S1024x256_0_0_1_1_n_n.lhsBatch by decide),
    dif_pos (show (1 : Fin S2048x1024.rank) ∈ dot_S2048x1024_S2048x256_S1024x256_0_0_1_1_n_n.lhsNonContracting by decide)]
  rfl
theorem rhs256_0 (i : S1024x256.Idx) (q : dot_S2048x1024_S2048x256_S1024x256_0_0_1_1_n_n.contr.Idx) :
    (dot_S2048x1024_S2048x256_S1024x256_0_0_1_1_n_n.rhsIdx i q 0).val = (q ⟨0, by decide⟩).val :=
  dot_S2048x1024_S2048x256_S1024x256_0_0_1_1_n_n.rhsIdx_val_of_single rfl i q
theorem rhs256_1 (i : S1024x256.Idx) (q : dot_S2048x1024_S2048x256_S1024x256_0_0_1_1_n_n.contr.Idx) :
    (dot_S2048x1024_S2048x256_S1024x256_0_0_1_1_n_n.rhsIdx i q 1).val = (i 1).val := by
  unfold DotDims.rhsIdx
  rw [dif_neg (show ¬(1 : Fin S2048x256.rank) ∈ dot_S2048x1024_S2048x256_S1024x256_0_0_1_1_n_n.rhsBatch by decide),
    dif_pos (show (1 : Fin S2048x256.rank) ∈ dot_S2048x1024_S2048x256_S1024x256_0_0_1_1_n_n.rhsNonContracting by decide)]
  rfl

/-- The product into the zero block, at `(k, c)`: the sum over the 2048 rows of the two operands' entries in that row. -/
theorem matmul256_apply (A : FVec Ideal S2048x1024 .bf16) (B : FVec Ideal S2048x256 .bf16) (k : Fin 1024) (c : Fin 256) :
    matmul dot_S2048x1024_S2048x256_S1024x256_0_0_1_1_n_n none A B (constant (F := Ideal) S1024x256 .f32 0x00000000#32) (ix2 k c)
      = ∑ r : Fin 2048, A (ix2 r k) * B (ix2 r c) := by
  show FloatOps.matmul dot_S2048x1024_S2048x256_S1024x256_0_0_1_1_n_n none A B (constant (F := Ideal) S1024x256 .f32 0x00000000#32) (ix2 k c) = _
  rw [Ideal.matmul_constant_zero_apply, ← Equiv.sum_comp (contrEquiv1 dot_S2048x1024_S2048x256_S1024x256_0_0_1_1_n_n 2048 rfl rfl).symm]
  refine Finset.sum_congr rfl fun r _ => ?_
  have hk := contrEquiv1_symm_val dot_S2048x1024_S2048x256_S1024x256_0_0_1_1_n_n 2048 rfl rfl r
  have el : dot_S2048x1024_S2048x256_S1024x256_0_0_1_1_n_n.lhsIdx (ix2 k c) ((contrEquiv1 dot_S2048x1024_S2048x256_S1024x256_0_0_1_1_n_n 2048 rfl rfl).symm r) = ix2 r k :=
    funext fun a => Fin.ext (by
      match a with
      | ⟨0, _⟩ => exact (lhs256_0 _ _).trans hk
      | ⟨1, _⟩ => exact lhs256_1 _ _)
  have er : dot_S2048x1024_S2048x256_S1024x256_0_0_1_1_n_n.rhsIdx (ix2 k c) ((contrEquiv1 dot_S2048x1024_S2048x256_S1024x256_0_0_1_1_n_n 2048 rfl rfl).symm r) = ix2 r c :=
    funext fun a => Fin.ext (by
      match a with
      | ⟨0, _⟩ => exact (rhs256_0 _ _).trans hk
      | ⟨1, _⟩ => exact rhs256_1 _ _)
  rw [el, er]

theorem lhs128_0 (i : S1024x128.Idx) (q : dot_S2048x1024_S2048x128_S1024x128_0_0_1_1_n_n.contr.Idx) :
    (dot_S2048x1024_S2048x128_S1024x128_0_0_1_1_n_n.lhsIdx i q 0).val = (q ⟨0, by decide⟩).val :=
  dot_S2048x1024_S2048x128_S1024x128_0_0_1_1_n_n.lhsIdx_val_of_single rfl i q
theorem lhs128_1 (i : S1024x128.Idx) (q : dot_S2048x1024_S2048x128_S1024x128_0_0_1_1_n_n.contr.Idx) :
    (dot_S2048x1024_S2048x128_S1024x128_0_0_1_1_n_n.lhsIdx i q 1).val = (i 0).val := by
  unfold DotDims.lhsIdx
  rw [dif_neg (show ¬(1 : Fin S2048x1024.rank) ∈ dot_S2048x1024_S2048x128_S1024x128_0_0_1_1_n_n.lhsBatch by decide),
    dif_pos (show (1 : Fin S2048x1024.rank) ∈ dot_S2048x1024_S2048x128_S1024x128_0_0_1_1_n_n.lhsNonContracting by decide)]
  rfl
theorem rhs128_0 (i : S1024x128.Idx) (q : dot_S2048x1024_S2048x128_S1024x128_0_0_1_1_n_n.contr.Idx) :
    (dot_S2048x1024_S2048x128_S1024x128_0_0_1_1_n_n.rhsIdx i q 0).val = (q ⟨0, by decide⟩).val :=
  dot_S2048x1024_S2048x128_S1024x128_0_0_1_1_n_n.rhsIdx_val_of_single rfl i q
theorem rhs128_1 (i : S1024x128.Idx) (q : dot_S2048x1024_S2048x128_S1024x128_0_0_1_1_n_n.contr.Idx) :
    (dot_S2048x1024_S2048x128_S1024x128_0_0_1_1_n_n.rhsIdx i q 1).val = (i 1).val := by
  unfold DotDims.rhsIdx
  rw [dif_neg (show ¬(1 : Fin S2048x128.rank) ∈ dot_S2048x1024_S2048x128_S1024x128_0_0_1_1_n_n.rhsBatch by decide),
    dif_pos (show (1 : Fin S2048x128.rank) ∈ dot_S2048x1024_S2048x128_S1024x128_0_0_1_1_n_n.rhsNonContracting by decide)]
  rfl

/-- The product into the zero block, at `(k, c)`: the sum over the 2048 rows of the two operands' entries in that row. -/
theorem matmul128_apply (A : FVec Ideal S2048x1024 .bf16) (B : FVec Ideal S2048x128 .bf16) (k : Fin 1024) (c : Fin 128) :
    matmul dot_S2048x1024_S2048x128_S1024x128_0_0_1_1_n_n none A B (constant (F := Ideal) S1024x128 .f32 0x00000000#32) (ix2 k c)
      = ∑ r : Fin 2048, A (ix2 r k) * B (ix2 r c) := by
  show FloatOps.matmul dot_S2048x1024_S2048x128_S1024x128_0_0_1_1_n_n none A B (constant (F := Ideal) S1024x128 .f32 0x00000000#32) (ix2 k c) = _
  rw [Ideal.matmul_constant_zero_apply, ← Equiv.sum_comp (contrEquiv1 dot_S2048x1024_S2048x128_S1024x128_0_0_1_1_n_n 2048 rfl rfl).symm]
  refine Finset.sum_congr rfl fun r _ => ?_
  have hk := contrEquiv1_symm_val dot_S2048x1024_S2048x128_S1024x128_0_0_1_1_n_n 2048 rfl rfl r
  have el : dot_S2048x1024_S2048x128_S1024x128_0_0_1_1_n_n.lhsIdx (ix2 k c) ((contrEquiv1 dot_S2048x1024_S2048x128_S1024x128_0_0_1_1_n_n 2048 rfl rfl).symm r) = ix2 r k :=
    funext fun a => Fin.ext (by
      match a with
      | ⟨0, _⟩ => exact (lhs128_0 _ _).trans hk
      | ⟨1, _⟩ => exact lhs128_1 _ _)
  have er : dot_S2048x1024_S2048x128_S1024x128_0_0_1_1_n_n.rhsIdx (ix2 k c) ((contrEquiv1 dot_S2048x1024_S2048x128_S1024x128_0_0_1_1_n_n 2048 rfl rfl).symm r) = ix2 r c :=
    funext fun a => Fin.ext (by
      match a with
      | ⟨0, _⟩ => exact (rhs128_0 _ _).trans hk
      | ⟨1, _⟩ => exact rhs128_1 _ _)
  rw [el, er]

/-! ## The one-hot matrix at an entry -/

theorem pay6_eq (x1 : Vec Ideal S2048x1 .i32) : k0_pay6 (F := Ideal) x1 = x1 := shapeCast_self x1 _

theorem pay7_apply (x1 : Vec Ideal S2048x1 .i32) (j : S2048x1.Idx) :
    k0_pay7 (F := Ideal) x1 j = IntOp.cmpi .sge (x1 j) 0#32 := by
  show IntOp.cmpi .sge (k0_pay6 (F := Ideal) x1 j) 0#32 = _
  rw [pay6_eq]

/-- Entry `(r, k)` of the one-hot matrix is the weight of row `r`'s id word on id `k`. -/
theorem onehot_apply (x1 : Vec Ideal S2048x1 .i32) (r : Fin 2048) (k : Fin 1024) :
    k0_pay8 (F := Ideal) x1 (ix2 r k) = hotW (x1 (ix2 r (0 : Fin 1))) k.val := by
  unfold k0_pay8
  show Scalar.select
      (IntOp.cmpi .eq
        (broadcastTo S2048x1024 (select (k0_pay7 (F := Ideal) x1) (k0_pay6 (F := Ideal) x1) (broadcast S2048x1 (0#32 : BitVec 32))) _ (ix2 r k))
        (broadcastTo S2048x1024 (iota .tc S1x1024 32 [1] iota_S1x1024_d1_w32) _ (ix2 r k)))
      (broadcastTo S2048x1024
        (shapeCast S2048x1 (sitofp (F := Ideal) .f32 (extui 32 (k0_pay7 (F := Ideal) x1) natLt_1_32)) shapeCasts_S2048x1_S2048x1) _ (ix2 r k))
      (Ideal.ofBits .f32 0x00000000#32) = _
  rw [bcast_col _ _ (by decide) r k, broadcastTo_1b_ab_apply, bcast_col _ _ (by decide) r k, shapeCast_self, iota_single_apply]
  show Scalar.select
      (IntOp.cmpi .eq (Scalar.select (k0_pay7 (F := Ideal) x1 (ix2 r (0 : Fin 1))) (k0_pay6 (F := Ideal) x1 (ix2 r (0 : Fin 1))) 0#32)
        (BitVec.ofNat 32 k.val))
      (FloatOps.sitofp (F := Ideal) .f32 ((k0_pay7 (F := Ideal) x1 (ix2 r (0 : Fin 1))).setWidth 32))
      (Ideal.ofBits .f32 0x00000000#32) = _
  rw [pay7_apply, pay6_eq]
  exact hot_word _ _ k.isLt

/-! ## The sums block -/

theorem pay10_apply (x0 : Vec Ideal S2048x256 .f32) (x1 : Vec Ideal S2048x1 .i32) (prev : Vec Ideal S1x1024x256 .f32)
    (k : Fin 1024) (d : Fin 256) :
    k0_pay10 (F := Ideal) x0 x1 prev (ix3 (0 : Fin 1) k d)
      = prev (ix3 (0 : Fin 1) k d) + ∑ r : Fin 2048, hotW (x1 (ix2 r (0 : Fin 1))) k.val * x0 (ix2 r d) := by
  unfold k0_pay10
  refine (shapeCast_ab_1ab_apply _ _ (0 : Fin 1) k d).trans ?_
  rw [addf_apply, shapeCast_1ab_ab_apply, matmul256_apply]
  refine congrArg (prev (ix3 (0 : Fin 1) k d) + ·) (Finset.sum_congr rfl fun r _ => ?_)
  rw [onehot_apply]
  rfl

/-! ## The augmented columns: a one, the row's squared norm, zeros -/

section Aug
variable {α : Type}

/-- A vector `[a]` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Two columns and a constant block of 126 columns laid side by side, read at `(r, j)`: the first column at `j = 0`, the
    second at `j = 1`, the constant from then on. -/
theorem concat3_apply (A B : S2048x1.Idx → α) (C : S2048x126.Idx → α)
    (h : Shape.Concatenates [S2048x1, S2048x1, S2048x126] S2048x128 1) (r : Fin 2048) (j : Fin 128) (a b z : α)
    (hA : A (ix2 r (0 : Fin 1)) = a) (hB : B (ix2 r (0 : Fin 1)) = b) (hC : ∀ i, C i = z) :
    concatenate S2048x128 1 [⟨S2048x1, A⟩, ⟨S2048x1, B⟩, ⟨S2048x126, C⟩] h (ix2 r j)
      = if j.val = 0 then a else if j.val = 1 then b else z := by
  by_cases h0 : j.val = 0
  · rw [if_pos h0]
    refine (concatenate_apply_piece (1 : Fin S2048x128.rank) [⟨S2048x1, A⟩, ⟨S2048x1, B⟩, ⟨S2048x126, C⟩] h (ix2 r j) 0 (by show (0 : ℕ) < 3; decide) S2048x1 A rfl rfl 0 rfl
      (ix2 r (0 : Fin 1)) ?_ ?_).trans hA
    · intro c hc
      match c with
      | ⟨0, _⟩ => rfl
      | ⟨1, _⟩ => exact absurd (Fin.ext rfl) hc
    · show 0 + 0 = j.val
      omega
  · rw [if_neg h0]
    by_cases h1 : j.val = 1
    · rw [if_pos h1]
      refine (concatenate_apply_piece (1 : Fin S2048x128.rank) [⟨S2048x1, A⟩, ⟨S2048x1, B⟩, ⟨S2048x126, C⟩] h (ix2 r j) 1 (by show (1 : ℕ) < 3; decide) S2048x1 B rfl rfl 1 rfl
        (ix2 r (0 : Fin 1)) ?_ ?_).trans hB
      · intro c hc
        match c with
        | ⟨0, _⟩ => rfl
        | ⟨1, _⟩ => exact absurd (Fin.ext rfl) hc
      · show 1 + 0 = j.val
        omega
    · rw [if_neg h1]
      have hlt : j.val - 2 < 126 := by have := j.isLt; omega
      refine (concatenate_apply_piece (1 : Fin S2048x128.rank) [⟨S2048x1, A⟩, ⟨S2048x1, B⟩, ⟨S2048x126, C⟩] h (ix2 r j) 2 (by show (2 : ℕ) < 3; decide) S2048x126 C rfl rfl 2 rfl
        (ix2 r (⟨j.val - 2, hlt⟩ : Fin 126)) ?_ ?_).trans (hC _)
      · intro c hc
        match c with
        | ⟨0, _⟩ => rfl
        | ⟨1, _⟩ => exact absurd (Fin.ext rfl) hc
      · show 2 + (j.val - 2) = j.val
        omega

end Aug

/-- The index over row `r` with lane `d` inserted. -/
theorem lift_row (h : S2048x256.Reduces [1] S2048) (r : Fin 2048) (d : Fin 256) : h.lift (ix1 r) d = ix2 r d := by
  funext c
  apply Fin.ext
  match c with
  | ⟨0, _⟩ => rfl
  | ⟨1, _⟩ => rfl

/-- A lane sum over the 256 columns, at row `r`. -/
theorem rowsum_apply (x : FVec Ideal S2048x256 .f32) (h : S2048x256.Reduces [1] S2048) (hφ : FKind.Formats .f32)
    (hacc : (0x00000000#32 : BitVec 32) = FKind.add.neutral .f32 hφ) (r : Fin 2048) :
    multiReduction (F := Ideal) .add [1] S2048 x 0x00000000#32 h hφ hacc (ix1 r) = ∑ d : Fin 256, x (ix2 r d) :=
  (Ideal.multiReduction_add_single x _ h hφ hacc (ix1 r)).trans
    (Finset.sum_congr rfl fun d _ => congrArg x (lift_row h r d))

/-- The index over the one result element with row `r` inserted. -/
theorem lift_col (h : S2048x1.Reduces [0] S1) (r : Fin 2048) : h.lift (ix1 (0 : Fin 1)) r = ix2 r (0 : Fin 1) := by
  funext c
  apply Fin.ext
  match c with
  | ⟨0, _⟩ => rfl
  | ⟨1, _⟩ => rfl

/-- A sum down the 2048 rows of a column. -/
theorem colsum_apply (v : FVec Ideal S2048x1 .f32) (h : S2048x1.Reduces [0] S1) (hφ : FKind.Formats .f32)
    (hacc : (0x00000000#32 : BitVec 32) = FKind.add.neutral .f32 hφ) :
    multiReduction (F := Ideal) .add [0] S1 v 0x00000000#32 h hφ hacc (ix1 (0 : Fin 1)) = ∑ r : Fin 2048, v (ix2 r (0 : Fin 1)) :=
  (Ideal.multiReduction_add_single v _ h hφ hacc (ix1 (0 : Fin 1))).trans
    (Finset.sum_congr rfl fun r _ => congrArg v (lift_col h r))

/-- The product of the one-hot matrix with the augmented block, at `(k, j)`. -/
theorem pay9_apply (x0 : Vec Ideal S2048x256 .f32) (x1 : Vec Ideal S2048x1 .i32) (k : Fin 1024) (j : Fin 128) :
    k0_pay9 (F := Ideal) x0 x1 (ix2 k j) = ∑ r : Fin 2048, hotW (x1 (ix2 r (0 : Fin 1))) k.val * augW x0 r j := by
  unfold k0_pay9
  refine (matmul128_apply _ _ k j).trans ?_
  refine Finset.sum_congr rfl fun r _ => ?_
  rw [onehot_apply, truncf_apply]
  refine congrArg (hotW (x1 (ix2 r (0 : Fin 1))) k.val * ·) ?_
  unfold augW
  refine concat3_apply _ _ _ _ r j 1 (∑ d : Fin 256, x0 (ix2 r d) * x0 (ix2 r d)) 0
    (IdealRules.sign_bit.ideal_onePat .f32) ?_ (fun _ => Ideal.ofBits_zero_f32)
  refine (shapeCast_a_a1_apply _ _ r (0 : Fin 1)).trans ?_
  exact rowsum_apply _ _ _ _ r

/-! ## The augmented block and the count of invalid rows -/

theorem pay1_apply (x0 : Vec Ideal S2048x256 .f32) (x1 : Vec Ideal S2048x1 .i32) (prev : Vec Ideal S1x1024x128 .f32)
    (k : Fin 1024) (j : Fin 128) :
    k0_pay1 (F := Ideal) (k0_pay9 (F := Ideal) x0 x1) prev (ix3 (0 : Fin 1) k j)
      = prev (ix3 (0 : Fin 1) k j) + ∑ r : Fin 2048, hotW (x1 (ix2 r (0 : Fin 1))) k.val * augW x0 r j := by
  unfold k0_pay1
  refine (shapeCast_ab_1ab_apply _ _ (0 : Fin 1) k j).trans ?_
  rw [addf_apply, shapeCast_1ab_ab_apply, pay9_apply]

theorem pay2_apply (x1 : Vec Ideal S2048x1 .i32) (prev : Vec Ideal S1x8x128 .f32) (a : Fin 8) (b : Fin 128) :
    k0_pay2 (F := Ideal) (k0_pay7 (F := Ideal) x1) prev (ix3 (0 : Fin 1) a b)
      = prev (ix3 (0 : Fin 1) a b) + ∑ r : Fin 2048, negW (x1 (ix2 r (0 : Fin 1))) := by
  unfold k0_pay2
  refine (shapeCast_ab_1ab_apply _ _ (0 : Fin 1) a b).trans ?_
  rw [addf_apply, shapeCast_1ab_ab_apply, bcast_unit, shapeCast_self]
  refine congrArg (prev (ix3 (0 : Fin 1) a b) + ·) ?_
  refine (shapeCast_a_1a_apply _ _ (0 : Fin 1) (0 : Fin 1)).trans ?_
  refine (colsum_apply _ _ _ _).trans ?_
  refine Finset.sum_congr rfl fun r _ => ?_
  show FloatOps.sitofp (F := Ideal) .f32 ((IntOp.xori (k0_pay7 (F := Ideal) x1 (ix2 r (0 : Fin 1))) 1#1).setWidth 32) = _
  rw [pay7_apply]
  exact neg_word _

end Cert.KernelIdeal.Pay

end
-- ==== Proof.KernelAccum.lean ====
/-
  From the body's steps to the three result arrays of the region.
  Grid point `t` (of 128) stages rows `2048 t … 2048 t + 2047` and accumulates into block `t / 64` of each result,
  which is reset at the points `t ≡ 0 (mod 64)` and written back after `t ≡ 63`. So block `g` of each result ends at the
  sum over the 64 points `64 g … 64 g + 63` of that point's contribution.

  In order: what the two staged blocks read of the argument arrays (the ids through the column the host reshapes them to);
  one point's step in the rows of the arrays; what the accumulators hold after every point, by induction on the point;
  the block each half's last point writes back, and that these two blocks cover each result array.
-/
import proofs.«401973_j3547642986610_3_alg».proof.Proof.KernelBody
import proofs.«401973_j3547642986610_3_alg».proof.Proof.KernelPay
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.SegVar

variable (m : (ℓ : Loc nD τ sig) → Buf (Elt Ideal) ℓ)

/-- The two argument arrays as launched, as the mathematics reads them. -/
abbrev X (c : Dev nD) : SX.Idx → EReal := m ((c.tc : Thread nD τ).loc main_arg0)
abbrev I (c : Dev nD) : SI.Idx → BitVec 32 := m ((c.tc : Thread nD τ).loc main_arg1)

/-! ## The blocks a point stages -/

/-- The block of rows and the block of id words staged at point `t`, at their literal types. -/
abbrev xblk (c : Dev nD) (t : Fin cfg0.N) : Vec Ideal S2048x256 .f32 := iblk m c 0 t
abbrev iblkW (c : Dev nD) (t : Fin cfg0.N) : Vec Ideal S2048x1 .i32 := iblk m c 1 t

/-- The block indices of the five windows at point `t`: the two inputs move with the point, the three results with
    its half of the grid. -/
theorem idx_in : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Point `t` stages rows `2048 t … 2048 t + 2047`. -/
theorem xblk_apply (c : Dev nD) (t : Fin cfg0.N) (r : Fin 2048) (d : Fin 256) :
    xblk m c t (ix2 r d) = X m c (ix2 (rowOf t.val r) d) := by
  have hN : t.val < 128 := lt_of_lt_of_eq t.isLt (show cfg0.N = 128 from N_0)
  obtain ⟨e0, e1, -, -⟩ := idx_in t
  show iblk m c 0 t (ix2 r d) = _
  unfold iblk
  rw [View.read_apply]
  show V m c main_arg0 _ = m (c.tc.loc main_arg0) _
  rw [V_main_arg0]
  congr 1
  funext a
  apply Fin.ext
  match a with
  | ⟨0, _⟩ => show win0_0.index t (0 : Fin 2) * 2048 + 1 * r.val = (t.val * 2048 + r.val) % 262144; rw [e0]; omega
  | ⟨1, _⟩ => show win0_0.index t (1 : Fin 2) * 256 + 1 * d.val = d.val; rw [e1]; omega

/-- The ids window stages the column the host reshapes the id vector to before the region. -/
theorem idcol_eq (c : Dev nD) : (V m c main_v0 : Vec Ideal S262144x1 .i32)
    = shapeCast S262144x1 (m ((c.tc : Thread nD τ).loc main_arg1)) shapeCasts_S262144_S262144x1 := by
  dsimp only [V, V0]
  simp only [hostOps0, List.flatten_cons, List.flatten_nil, List.append_nil, List.cons_append, List.nil_append]
  after_results
  rfl

/-- Entry `(n, 0)` of the column is id `n`: the same row-major position. -/
theorem col_apply (ids : S262144.Idx → BitVec 32) (n : Fin 262144) :
    shapeCast S262144x1 ids shapeCasts_S262144_S262144x1 (ix2 n (0 : Fin 1)) = ids (ix1 n) := by
  refine shapeCast_apply ids shapeCasts_S262144_S262144x1 (ix2 n (0 : Fin 1)) (ix1 n) ?_
  rw [Shape.rowMajor_val_one, Shape.rowMajor_val_two]
  show n.val = n.val * 1 + 0
  omega

/-- Point `t` stages the id words of rows `2048 t … 2048 t + 2047`. -/
theorem iblkW_apply (c : Dev nD) (t : Fin cfg0.N) (r : Fin 2048) :
    iblkW m c t (ix2 r (0 : Fin 1)) = I m c (ix1 (rowOf t.val r)) := by
  have hN : t.val < 128 := lt_of_lt_of_eq t.isLt (show cfg0.N = 128 from N_0)
  obtain ⟨-, -, e0, e1⟩ := idx_in t
  show iblk m c 1 t (ix2 r (0 : Fin 1)) = _
  unfold iblk
  rw [View.read_apply]
  show V m c main_v0 (((cfg0.win 1).blk t).view.emb (ix2 r (0 : Fin 1))) = _
  have hemb : ((cfg0.win 1).blk t).view.emb (ix2 r (0 : Fin 1)) = ix2 (rowOf t.val r) (0 : Fin 1) := by
    funext a
    apply Fin.ext
    match a with
    | ⟨0, _⟩ => show win0_1.index t (0 : Fin 2) * 2048 + 1 * r.val = (t.val * 2048 + r.val) % 262144; rw [e0]; omega
    | ⟨1, _⟩ => show win0_1.index t (1 : Fin 2) * 1 + 1 * 0 = 0; rw [e1]
  rw [hemb, idcol_eq m c]
  exact col_apply (m ((c.tc : Thread nD τ).loc main_arg1)) (rowOf t.val r)

/-! ## One point's contribution, in the rows of the arrays -/

theorem hot_eq (c : Dev nD) (t : Fin cfg0.N) (r : Fin 2048) (k : ℕ) :
    hotW (iblkW m c t (ix2 r (0 : Fin 1))) k = hot (I m c) (rowOf t.val r) k := by
  rw [iblkW_apply]; rfl

theorem blkSum_eq (c : Dev nD) (t : Fin cfg0.N) (k : ℕ) (d : Fin 256) :
    ∑ r : Fin 2048, hotW (iblkW m c t (ix2 r (0 : Fin 1))) k * xblk m c t (ix2 r d) = blkSum (X m c) (I m c) t.val k d := by
  unfold blkSum
  refine Finset.sum_congr rfl fun r _ => ?_
  rw [hot_eq, xblk_apply]

theorem aug_eq (c : Dev nD) (t : Fin cfg0.N) (r : Fin 2048) (j : Fin 128) :
    Pay.augW (xblk m c t) r j = augAt (X m c) (rowOf t.val r) j := by
  have e : ∑ d : Fin 256, xblk m c t (ix2 r d) * xblk m c t (ix2 r d)
      = ∑ d : Fin 256, X m c (ix2 (rowOf t.val r) d) * X m c (ix2 (rowOf t.val r) d) :=
    Finset.sum_congr rfl fun d _ => by rw [xblk_apply]
  unfold Pay.augW augAt
  rw [e]

theorem blkAug_eq (c : Dev nD) (t : Fin cfg0.N) (k : ℕ) (j : Fin 128) :
    ∑ r : Fin 2048, hotW (iblkW m c t (ix2 r (0 : Fin 1))) k * Pay.augW (xblk m c t) r j = blkAug (X m c) (I m c) t.val k j := by
  unfold blkAug
  refine Finset.sum_congr rfl fun r _ => ?_
  rw [hot_eq, aug_eq]

theorem blkInv_eq (c : Dev nD) (t : Fin cfg0.N) :
    ∑ r : Fin 2048, negW (iblkW m c t (ix2 r (0 : Fin 1))) = blkInv (I m c) t.val := by
  unfold blkInv
  refine Finset.sum_congr rfl fun r _ => ?_
  rw [iblkW_apply]

/-! ## What the accumulators hold after each point -/

/-- What the point before `t` left in the three accumulators. -/
abbrev prevAt (c : Dev nD) (t : Fin cfg0.N) : Vec Ideal S1x1024x256 .f32 × Vec Ideal S1x1024x128 .f32 × Vec Ideal S1x8x128 .f32 :=
  outsAt0 m c (t.val - 1) (Nat.lt_of_le_of_lt (Nat.sub_le _ _) t.isLt)

/-- A point that resets leaves its own contribution to the per-id sums: the step on the zero block. -/
theorem resetSum (c : Dev nD) (t : Fin cfg0.N) (h0 : t.val % 64 = 0) (k : Fin 1024) (d : Fin 256) :
    (outsAt0 m c t.val t.isLt).1 (ix3 (0 : Fin 1) k d) = blkSum (X m c) (I m c) t.val k.val d := by
  rw [outsAt0_A m c t h0]
  dsimp only
  refine (congrFun (Body.out_A_2 (F := Ideal) c (grid0.coords t) (ms0_0 t) (hs0_0 t) (ms0_1 t) (hs0_1 t) (ms0_2 t) (hs0_2 t)
    (ms0_3 t) (hs0_3 t) (ms0_4 t) (hs0_4 t) ((hcond0_0 t).mpr h0) (xblk m c t) (iblkW m c t)) (ix3 (0 : Fin 1) k d)).trans ?_
  refine (Pay.pay10_apply (xblk m c t) (iblkW m c t) (k0_pay3 (F := Ideal)) k d).trans ?_
  rw [Pay.pay3_apply, zero_add]
  exact blkSum_eq m c t k.val d

/-- Likewise to the augmented columns, -/
theorem resetAug (c : Dev nD) (t : Fin cfg0.N) (h0 : t.val % 64 = 0) (k : Fin 1024) (j : Fin 128) :
    (outsAt0 m c t.val t.isLt).2.1 (ix3 (0 : Fin 1) k j) = blkAug (X m c) (I m c) t.val k.val j := by
  rw [outsAt0_A m c t h0]
  dsimp only
  refine (congrFun (Body.out_A_3 (F := Ideal) c (grid0.coords t) (ms0_0 t) (hs0_0 t) (ms0_1 t) (hs0_1 t) (ms0_2 t) (hs0_2 t)
    (ms0_3 t) (hs0_3 t) (ms0_4 t) (hs0_4 t) ((hcond0_0 t).mpr h0) (xblk m c t) (iblkW m c t)) (ix3 (0 : Fin 1) k j)).trans ?_
  refine (Pay.pay1_apply (xblk m c t) (iblkW m c t) (k0_pay4 (F := Ideal)) k j).trans ?_
  rw [Pay.pay4_apply, zero_add]
  exact blkAug_eq m c t k.val j

/-- and to the count of invalid rows. -/
theorem resetInv (c : Dev nD) (t : Fin cfg0.N) (h0 : t.val % 64 = 0) (a : Fin 8) (b : Fin 128) :
    (outsAt0 m c t.val t.isLt).2.2 (ix3 (0 : Fin 1) a b) = blkInv (I m c) t.val := by
  rw [outsAt0_A m c t h0]
  dsimp only
  refine (congrFun (Body.out_A_4 (F := Ideal) c (grid0.coords t) (ms0_0 t) (hs0_0 t) (ms0_1 t) (hs0_1 t) (ms0_2 t) (hs0_2 t)
    (ms0_3 t) (hs0_3 t) (ms0_4 t) (hs0_4 t) ((hcond0_0 t).mpr h0) (xblk m c t) (iblkW m c t)) (ix3 (0 : Fin 1) a b)).trans ?_
  refine (Pay.pay2_apply (iblkW m c t) (k0_pay5 (F := Ideal)) a b).trans ?_
  rw [Pay.pay5_apply, zero_add]
  exact blkInv_eq m c t

/-- Any other point adds its contribution to what the point before left: to the per-id sums, -/
theorem stepSum (c : Dev nD) (t : Fin cfg0.N) (h0 : ¬t.val % 64 = 0) (k : Fin 1024) (d : Fin 256) :
    (outsAt0 m c t.val t.isLt).1 (ix3 (0 : Fin 1) k d)
      = (prevAt m c t).1 (ix3 (0 : Fin 1) k d) + blkSum (X m c) (I m c) t.val k.val d := by
  rw [outsAt0_B m c t h0]
  dsimp only
  refine (congrFun (Body.out_B_2 (F := Ideal) c (grid0.coords t) (ms0_0 t) (hs0_0 t) (ms0_1 t) (hs0_1 t) (ms0_2 t) (hs0_2 t)
    (ms0_3 t) (hs0_3 t) (ms0_4 t) (hs0_4 t) (fun h => h0 ((hcond0_0 t).mp h)) (xblk m c t) (iblkW m c t)
    (prevAt m c t).1 (prevAt m c t).2.1 (prevAt m c t).2.2) (ix3 (0 : Fin 1) k d)).trans ?_
  refine (Pay.pay10_apply (xblk m c t) (iblkW m c t) (prevAt m c t).1 k d).trans ?_
  rw [blkSum_eq]

/-- to the augmented columns, -/
theorem stepAug (c : Dev nD) (t : Fin cfg0.N) (h0 : ¬t.val % 64 = 0) (k : Fin 1024) (j : Fin 128) :
    (outsAt0 m c t.val t.isLt).2.1 (ix3 (0 : Fin 1) k j)
      = (prevAt m c t).2.1 (ix3 (0 : Fin 1) k j) + blkAug (X m c) (I m c) t.val k.val j := by
  rw [outsAt0_B m c t h0]
  dsimp only
  refine (congrFun (Body.out_B_3 (F := Ideal) c (grid0.coords t) (ms0_0 t) (hs0_0 t) (ms0_1 t) (hs0_1 t) (ms0_2 t) (hs0_2 t)
    (ms0_3 t) (hs0_3 t) (ms0_4 t) (hs0_4 t) (fun h => h0 ((hcond0_0 t).mp h)) (xblk m c t) (iblkW m c t)
    (prevAt m c t).1 (prevAt m c t).2.1 (prevAt m c t).2.2) (ix3 (0 : Fin 1) k j)).trans ?_
  refine (Pay.pay1_apply (xblk m c t) (iblkW m c t) (prevAt m c t).2.1 k j).trans ?_
  rw [blkAug_eq]

/-- and to the count of invalid rows. -/
theorem stepInv (c : Dev nD) (t : Fin cfg0.N) (h0 : ¬t.val % 64 = 0) (a : Fin 8) (b : Fin 128) :
    (outsAt0 m c t.val t.isLt).2.2 (ix3 (0 : Fin 1) a b)
      = (prevAt m c t).2.2 (ix3 (0 : Fin 1) a b) + blkInv (I m c) t.val := by
  rw [outsAt0_B m c t h0]
  dsimp only
  refine (congrFun (Body.out_B_4 (F := Ideal) c (grid0.coords t) (ms0_0 t) (hs0_0 t) (ms0_1 t) (hs0_1 t) (ms0_2 t) (hs0_2 t)
    (ms0_3 t) (hs0_3 t) (ms0_4 t) (hs0_4 t) (fun h => h0 ((hcond0_0 t).mp h)) (xblk m c t) (iblkW m c t)
    (prevAt m c t).1 (prevAt m c t).2.1 (prevAt m c t).2.2) (ix3 (0 : Fin 1) a b)).trans ?_
  refine (Pay.pay2_apply (iblkW m c t) (prevAt m c t).2.2 a b).trans ?_
  rw [blkInv_eq]

/-- A quantity indexed by the points that restarts at each multiple of 64 with that point's term and otherwise
    grows by the point's term is, at point `n`, the sum of the terms of the points `64 (n / 64) … n`. -/
theorem run_sum {N : ℕ} (f : (n : ℕ) → n < N → EReal) (M : ℕ → EReal)
    (hA : ∀ (n : ℕ) (h : n < N), n % 64 = 0 → f n h = M n)
    (hB : ∀ (n : ℕ) (h : n + 1 < N), ¬(n + 1) % 64 = 0 → f (n + 1) h = f n (Nat.lt_of_succ_lt h) + M (n + 1)) :
    ∀ (n : ℕ) (h : n < N), f n h = ∑ j ∈ Finset.range (n % 64 + 1), M (64 * (n / 64) + j)
  | 0, h => by
    rw [hA 0 h rfl]
    exact (Finset.sum_range_one (fun j => M (64 * (0 / 64) + j))).symm
  | n + 1, h => by
    by_cases h0 : (n + 1) % 64 = 0
    · rw [hA (n + 1) h h0, h0, Nat.zero_add, Finset.sum_range_one]
      exact congrArg M (by omega)
    · have e1 : (n + 1) / 64 = n / 64 := by omega
      have e2 : (n + 1) % 64 = n % 64 + 1 := by omega
      rw [hB n h h0, run_sum f M hA hB n (Nat.lt_of_succ_lt h), e1, e2, Finset.sum_range_succ _ (n % 64 + 1)]
      exact congrArg (fun p => _ + M p) (by omega)

/-- So after point `n` each accumulator holds the contributions of the points of `n`'s half of the grid up to `n`. -/
theorem accSum (c : Dev nD) (k : Fin 1024) (d : Fin 256) (n : ℕ) (h : n < cfg0.N) :
    (outsAt0 m c n h).1 (ix3 (0 : Fin 1) k d)
      = ∑ j ∈ Finset.range (n % 64 + 1), blkSum (X m c) (I m c) (64 * (n / 64) + j) k.val d :=
  run_sum (N := cfg0.N) (fun n h => (outsAt0 m c n h).1 (ix3 (0 : Fin 1) k d)) (fun p => blkSum (X m c) (I m c) p k.val d)
    (fun n h h0 => resetSum m c ⟨n, h⟩ h0 k d) (fun n h h0 => stepSum m c ⟨n + 1, h⟩ h0 k d) n h

theorem accAug (c : Dev nD) (k : Fin 1024) (j : Fin 128) (n : ℕ) (h : n < cfg0.N) :
    (outsAt0 m c n h).2.1 (ix3 (0 : Fin 1) k j)
      = ∑ i ∈ Finset.range (n % 64 + 1), blkAug (X m c) (I m c) (64 * (n / 64) + i) k.val j :=
  run_sum (N := cfg0.N) (fun n h => (outsAt0 m c n h).2.1 (ix3 (0 : Fin 1) k j)) (fun p => blkAug (X m c) (I m c) p k.val j)
    (fun n h h0 => resetAug m c ⟨n, h⟩ h0 k j) (fun n h h0 => stepAug m c ⟨n + 1, h⟩ h0 k j) n h

theorem accInv (c : Dev nD) (a : Fin 8) (b : Fin 128) (n : ℕ) (h : n < cfg0.N) :
    (outsAt0 m c n h).2.2 (ix3 (0 : Fin 1) a b)
      = ∑ i ∈ Finset.range (n % 64 + 1), blkInv (I m c) (64 * (n / 64) + i) :=
  run_sum (N := cfg0.N) (fun n h => (outsAt0 m c n h).2.2 (ix3 (0 : Fin 1) a b)) (fun p => blkInv (I m c) p)
    (fun n h h0 => resetInv m c ⟨n, h⟩ h0 a b) (fun n h h0 => stepInv m c ⟨n + 1, h⟩ h0 a b) n h

/-! ## From the accumulators to the arrays -/

/-- The block index of each result window at point `t`: the point's half of the grid, then zeros. -/
theorem idx_out : ∀ t : Fin cfg0.N, win0_2.index t (0 : Fin 3) = t.val / 64 ∧ win0_2.index t (1 : Fin 3) = 0 ∧ win0_2.index t (2 : Fin 3) = 0
    ∧ win0_3.index t (0 : Fin 3) = t.val / 64 ∧ win0_3.index t (1 : Fin 3) = 0 ∧ win0_3.index t (2 : Fin 3) = 0
    ∧ win0_4.index t (0 : Fin 3) = t.val / 64 ∧ win0_4.index t (1 : Fin 3) = 0 ∧ win0_4.index t (2 : Fin 3) = 0 :=
  (by decide +kernel : ∀ t : Fin grid0.N, _)

/-- What the three result arrays end holding, index by index: block `g` is the sum of the contributions of the
    64 points `64 g … 64 g + 63`. -/
abbrev sumArr (c : Dev nD) : Vec Ideal S2x1024x256 .f32 := fun i =>
  ∑ j ∈ Finset.range 64, blkSum (X m c) (I m c) (64 * (i 0).val + j) (i 1).val ⟨(i 2).val, (i 2).isLt⟩
abbrev augArr (c : Dev nD) : Vec Ideal S2x1024x128 .f32 := fun i =>
  ∑ j ∈ Finset.range 64, blkAug (X m c) (I m c) (64 * (i 0).val + j) (i 1).val ⟨(i 2).val, (i 2).isLt⟩
abbrev invArr (c : Dev nD) : Vec Ideal S2x8x128 .f32 := fun i =>
  ∑ j ∈ Finset.range 64, blkInv (I m c) (64 * (i 0).val + j)

/-- At the last point of a half of the grid the accumulator is that half's block of the array. -/
theorem sumBlk (c : Dev nD) (t : Fin cfg0.N) (h63 : t.val % 64 = 63) (y : S1x1024x256.Idx) (i : S2x1024x256.Idx)
    (h0 : (i 0).val = t.val / 64) (h1 : (i 1).val = (y 1).val) (h2 : (i 2).val = (y 2).val) :
    (outsAt0 m c t.val t.isLt).1 y = sumArr m c i := by
  obtain ⟨a, k, d, rfl⟩ : ∃ (a : Fin 1) (k : Fin 1024) (d : Fin 256), y = ix3 a k d := ⟨y 0, y 1, y 2, eq_ix3 y⟩
  obtain rfl : a = 0 := Subsingleton.elim _ _
  have h1' : (i 1).val = k.val := h1
  have e2 : (⟨(i 2).val, (i 2).isLt⟩ : Fin 256) = d := Fin.ext h2
  rw [accSum m c k d t.val t.isLt, h63]
  show ∑ j ∈ Finset.range 64, blkSum (X m c) (I m c) (64 * (t.val / 64) + j) k.val d
    = ∑ j ∈ Finset.range 64, blkSum (X m c) (I m c) (64 * (i 0).val + j) (i 1).val ⟨(i 2).val, (i 2).isLt⟩
  rw [e2, h0, h1']

theorem augBlk (c : Dev nD) (t : Fin cfg0.N) (h63 : t.val % 64 = 63) (y : S1x1024x128.Idx) (i : S2x1024x128.Idx)
    (h0 : (i 0).val = t.val / 64) (h1 : (i 1).val = (y 1).val) (h2 : (i 2).val = (y 2).val) :
    (outsAt0 m c t.val t.isLt).2.1 y = augArr m c i := by
  obtain ⟨a, k, j, rfl⟩ : ∃ (a : Fin 1) (k : Fin 1024) (j : Fin 128), y = ix3 a k j := ⟨y 0, y 1, y 2, eq_ix3 y⟩
  obtain rfl : a = 0 := Subsingleton.elim _ _
  have h1' : (i 1).val = k.val := h1
  have e2 : (⟨(i 2).val, (i 2).isLt⟩ : Fin 128) = j := Fin.ext h2
  rw [accAug m c k j t.val t.isLt, h63]
  show ∑ s ∈ Finset.range 64, blkAug (X m c) (I m c) (64 * (t.val / 64) + s) k.val j
    = ∑ s ∈ Finset.range 64, blkAug (X m c) (I m c) (64 * (i 0).val + s) (i 1).val ⟨(i 2).val, (i 2).isLt⟩
  rw [e2, h0, h1']

theorem invBlk (c : Dev nD) (t : Fin cfg0.N) (h63 : t.val % 64 = 63) (y : S1x8x128.Idx) (i : S2x8x128.Idx)
    (h0 : (i 0).val = t.val / 64) :
    (outsAt0 m c t.val t.isLt).2.2 y = invArr m c i := by
  obtain ⟨a, p, q, rfl⟩ : ∃ (a : Fin 1) (p : Fin 8) (q : Fin 128), y = ix3 a p q := ⟨y 0, y 1, y 2, eq_ix3 y⟩
  obtain rfl : a = 0 := Subsingleton.elim _ _
  rw [accInv m c p q t.val t.isLt, h63]
  show ∑ s ∈ Finset.range 64, blkInv (I m c) (64 * (t.val / 64) + s) = ∑ s ∈ Finset.range 64, blkInv (I m c) (64 * (i 0).val + s)
  rw [h0]

/-- What a point that writes back writes is its block of the array: for the per-id sums, -/
theorem sumFlushed (c : Dev nD) (t : Fin cfg0.N) (hf : (cfg0.win 2).flush t = true) :
    (dats m 0 c).flushed 2 t = ((cfg0.win 2).blk t).view.read (Elt Ideal) (sumArr m c) := by
  have h63 : t.val % 64 = 63 := (flush0_2 t).mp hf
  obtain ⟨e0, e1, e2, -⟩ := idx_out t
  show (cfg0.win 2).cut (grid0.coords t) ((dats m 0 c).after 2 t) = _
  rw [after0_2]
  funext y
  have hy0 : (y 0).val < 1 := (y 0).isLt
  refine sumBlk m c t h63 y (((cfg0.win 2).blk t).view.emb y) ?_ ?_ ?_
  · show win0_2.index t (0 : Fin 3) * 1 + 1 * (y 0).val = t.val / 64
    rw [e0]; omega
  · show win0_2.index t (1 : Fin 3) * 1024 + 1 * (y 1).val = (y 1).val
    rw [e1]; omega
  · show win0_2.index t (2 : Fin 3) * 256 + 1 * (y 2).val = (y 2).val
    rw [e2]; omega

/-- the augmented columns, -/
theorem augFlushed (c : Dev nD) (t : Fin cfg0.N) (hf : (cfg0.win 3).flush t = true) :
    (dats m 0 c).flushed 3 t = ((cfg0.win 3).blk t).view.read (Elt Ideal) (augArr m c) := by
  have h63 : t.val % 64 = 63 := (flush0_3 t).mp hf
  obtain ⟨-, -, -, e0, e1, e2, -⟩ := idx_out t
  show (cfg0.win 3).cut (grid0.coords t) ((dats m 0 c).after 3 t) = _
  rw [after0_3]
  funext y
  have hy0 : (y 0).val < 1 := (y 0).isLt
  refine augBlk m c t h63 y (((cfg0.win 3).blk t).view.emb y) ?_ ?_ ?_
  · show win0_3.index t (0 : Fin 3) * 1 + 1 * (y 0).val = t.val / 64
    rw [e0]; omega
  · show win0_3.index t (1 : Fin 3) * 1024 + 1 * (y 1).val = (y 1).val
    rw [e1]; omega
  · show win0_3.index t (2 : Fin 3) * 128 + 1 * (y 2).val = (y 2).val
    rw [e2]; omega

/-- and the count of invalid rows. -/
theorem invFlushed (c : Dev nD) (t : Fin cfg0.N) (hf : (cfg0.win 4).flush t = true) :
    (dats m 0 c).flushed 4 t = ((cfg0.win 4).blk t).view.read (Elt Ideal) (invArr m c) := by
  have h63 : t.val % 64 = 63 := (flush0_4 t).mp hf
  obtain ⟨-, -, -, -, -, -, e0, -, -⟩ := idx_out t
  show (cfg0.win 4).cut (grid0.coords t) ((dats m 0 c).after 4 t) = _
  rw [after0_4]
  funext y
  have hy0 : (y 0).val < 1 := (y 0).isLt
  refine invBlk m c t h63 y (((cfg0.win 4).blk t).view.emb y) ?_
  show win0_4.index t (0 : Fin 3) * 1 + 1 * (y 0).val = t.val / 64
  rw [e0]; omega

/-- The last point of half `g` of the grid. -/
abbrev lastOf (g : ℕ) (hg : g < 2) : Fin cfg0.N := ⟨64 * g + 63, by rw [show cfg0.N = 128 from N_0]; omega⟩

/-- Every index of each result array lies in the block written back at the last point of its half of the grid. -/
theorem sumCover (i : S2x1024x256.Idx) :
    ∃ t : Fin cfg0.N, (cfg0.win 2).flush t = true ∧ i ∈ ((cfg0.win 2).blk t).view.set := by
  have hi0 : (i 0).val < 2 := (i 0).isLt
  have hi1 : (i 1).val < 1024 := (i 1).isLt
  have hi2 : (i 2).val < 256 := (i 2).isLt
  obtain ⟨e0, e1, e2, -⟩ := idx_out (lastOf (i 0).val hi0)
  refine ⟨lastOf (i 0).val hi0, (flush0_2 _).mpr (by show (64 * (i 0).val + 63) % 64 = 63; omega), ?_⟩
  show i ∈ ((View.whole main_v1_0).slice (win0_2.rect (lastOf (i 0).val hi0))).set
  rw [View.set_slice_whole, Rect.mem_set_unit]
  intro a
  match a with
  | ⟨0, _⟩ =>
    show win0_2.index (lastOf (i 0).val hi0) (0 : Fin 3) * 1 ≤ (i 0).val
      ∧ (i 0).val < win0_2.index (lastOf (i 0).val hi0) (0 : Fin 3) * 1 + 1
    rw [e0]; show (64 * (i 0).val + 63) / 64 * 1 ≤ (i 0).val ∧ (i 0).val < (64 * (i 0).val + 63) / 64 * 1 + 1; omega
  | ⟨1, _⟩ =>
    show win0_2.index (lastOf (i 0).val hi0) (1 : Fin 3) * 1024 ≤ (i 1).val
      ∧ (i 1).val < win0_2.index (lastOf (i 0).val hi0) (1 : Fin 3) * 1024 + 1024
    rw [e1]; omega
  | ⟨2, _⟩ =>
    show win0_2.index (lastOf (i 0).val hi0) (2 : Fin 3) * 256 ≤ (i 2).val
      ∧ (i 2).val < win0_2.index (lastOf (i 0).val hi0) (2 : Fin 3) * 256 + 256
    rw [e2]; omega

theorem augCover (i : S2x1024x128.Idx) :
    ∃ t : Fin cfg0.N, (cfg0.win 3).flush t = true ∧ i ∈ ((cfg0.win 3).blk t).view.set := by
  have hi0 : (i 0).val < 2 := (i 0).isLt
  have hi1 : (i 1).val < 1024 := (i 1).isLt
  have hi2 : (i 2).val < 128 := (i 2).isLt
  obtain ⟨-, -, -, e0, e1, e2, -⟩ := idx_out (lastOf (i 0).val hi0)
  refine ⟨lastOf (i 0).val hi0, (flush0_3 _).mpr (by show (64 * (i 0).val + 63) % 64 = 63; omega), ?_⟩
  show i ∈ ((View.whole main_v1_1).slice (win0_3.rect (lastOf (i 0).val hi0))).set
  rw [View.set_slice_whole, Rect.mem_set_unit]
  intro a
  match a with
  | ⟨0, _⟩ =>
    show win0_3.index (lastOf (i 0).val hi0) (0 : Fin 3) * 1 ≤ (i 0).val
      ∧ (i 0).val < win0_3.index (lastOf (i 0).val hi0) (0 : Fin 3) * 1 + 1
    rw [e0]; show (64 * (i 0).val + 63) / 64 * 1 ≤ (i 0).val ∧ (i 0).val < (64 * (i 0).val + 63) / 64 * 1 + 1; omega
  | ⟨1, _⟩ =>
    show win0_3.index (lastOf (i 0).val hi0) (1 : Fin 3) * 1024 ≤ (i 1).val
      ∧ (i 1).val < win0_3.index (lastOf (i 0).val hi0) (1 : Fin 3) * 1024 + 1024
    rw [e1]; omega
  | ⟨2, _⟩ =>
    show win0_3.index (lastOf (i 0).val hi0) (2 : Fin 3) * 128 ≤ (i 2).val
      ∧ (i 2).val < win0_3.index (lastOf (i 0).val hi0) (2 : Fin 3) * 128 + 128
    rw [e2]; omega

theorem invCover (i : S2x8x128.Idx) :
    ∃ t : Fin cfg0.N, (cfg0.win 4).flush t = true ∧ i ∈ ((cfg0.win 4).blk t).view.set := by
  have hi0 : (i 0).val < 2 := (i 0).isLt
  have hi1 : (i 1).val < 8 := (i 1).isLt
  have hi2 : (i 2).val < 128 := (i 2).isLt
  obtain ⟨-, -, -, -, -, -, e0, e1, e2⟩ := idx_out (lastOf (i 0).val hi0)
  refine ⟨lastOf (i 0).val hi0, (flush0_4 _).mpr (by show (64 * (i 0).val + 63) % 64 = 63; omega), ?_⟩
  show i ∈ ((View.whole main_v1_2).slice (win0_4.rect (lastOf (i 0).val hi0))).set
  rw [View.set_slice_whole, Rect.mem_set_unit]
  intro a
  match a with
  | ⟨0, _⟩ =>
    show win0_4.index (lastOf (i 0).val hi0) (0 : Fin 3) * 1 ≤ (i 0).val
      ∧ (i 0).val < win0_4.index (lastOf (i 0).val hi0) (0 : Fin 3) * 1 + 1
    rw [e0]; show (64 * (i 0).val + 63) / 64 * 1 ≤ (i 0).val ∧ (i 0).val < (64 * (i 0).val + 63) / 64 * 1 + 1; omega
  | ⟨1, _⟩ =>
    show win0_4.index (lastOf (i 0).val hi0) (1 : Fin 3) * 8 ≤ (i 1).val
      ∧ (i 1).val < win0_4.index (lastOf (i 0).val hi0) (1 : Fin 3) * 8 + 8
    rw [e1]; omega
  | ⟨2, _⟩ =>
    show win0_4.index (lastOf (i 0).val hi0) (2 : Fin 3) * 128 ≤ (i 2).val
      ∧ (i 2).val < win0_4.index (lastOf (i 0).val hi0) (2 : Fin 3) * 128 + 128
    rw [e2]; omega

/-! ## The three result arrays -/

theorem final2 (c : Dev nD) (g : Fin 2) (k : Fin 1024) (d : Fin 256) :
    ((dats m 0 c).arrAt 2 cfg0.N : Vec Ideal S2x1024x256 .f32) (ix3 g k d)
      = ∑ j ∈ Finset.range 64, blkSum (X m c) (I m c) (64 * g.val + j) k.val d :=
  congrFun ((dats m 0 c).arrAt_eq_of_cover 2 (sumArr m c) (sumFlushed m c) sumCover) (ix3 g k d)

theorem final3 (c : Dev nD) (g : Fin 2) (k : Fin 1024) (j : Fin 128) :
    ((dats m 0 c).arrAt 3 cfg0.N : Vec Ideal S2x1024x128 .f32) (ix3 g k j)
      = ∑ i ∈ Finset.range 64, blkAug (X m c) (I m c) (64 * g.val + i) k.val j :=
  congrFun ((dats m 0 c).arrAt_eq_of_cover 3 (augArr m c) (augFlushed m c) augCover) (ix3 g k j)

theorem final4 (c : Dev nD) (g : Fin 2) (a : Fin 8) (b : Fin 128) :
    ((dats m 0 c).arrAt 4 cfg0.N : Vec Ideal S2x8x128 .f32) (ix3 g a b)
      = ∑ i ∈ Finset.range 64, blkInv (I m c) (64 * g.val + i) :=
  congrFun ((dats m 0 c).arrAt_eq_of_cover 4 (invArr m c) (invFlushed m c) invCover) (ix3 g a b)

end Cert.KernelIdeal.Accum

end
-- ==== Proof.Blocks.lean ====
/-
  The 262144 rows are the 2 × 64 blocks of 2048 rows, in order: a sum over the rows is the sum over the blocks of the
  sum over each block's rows.
-/
import proofs.«401973_j3547642986610_3_alg».proof.Proof.Spec
import Mathlib.Algebra.BigOperators.Fin
import Mathlib.Algebra.BigOperators.Group.Finset.Sigma
import Mathlib.Data.Fintype.BigOperators
import Mathlib.Data.Fintype.Prod

noncomputable section

open scoped BigOperators

namespace Cert.SegVar

/-- Block `g`, step `j`, row `r` ↦ the row's position: the triples enumerate the 262144 rows exactly once. -/
def rowMap (p : Fin 2 × Fin 64 × Fin 2048) : Fin 262144 := rowOf (64 * p.1.val + p.2.1.val) p.2.2

theorem rowMap_val (g : Fin 2) (j : Fin 64) (r : Fin 2048) :
    (rowMap (g, j, r)).val = (64 * g.val + j.val) * 2048 + r.val := by
  have hg := g.isLt
  have hj := j.isLt
  have hr := r.isLt
  show ((64 * g.val + j.val) * 2048 + r.val) % 262144 = _
  omega

theorem rowMap_injective : Function.Injective rowMap := by
  rintro ⟨g, j, r⟩ ⟨g', j', r'⟩ h
  have h' : (rowMap (g, j, r)).val = (rowMap (g', j', r')).val := congrArg Fin.val h
  rw [rowMap_val, rowMap_val] at h'
  have hg := g.isLt
  have hj := j.isLt
  have hr := r.isLt
  have hg' := g'.isLt
  have hj' := j'.isLt
  have hr' := r'.isLt
  have e1 : g = g' := Fin.ext (by omega)
  have e2 : j = j' := Fin.ext (by omega)
  have e3 : r = r' := Fin.ext (by omega)
  subst e1 e2 e3
  rfl

theorem rowMap_bijective : Function.Bijective rowMap :=
  (Fintype.bijective_iff_injective_and_card rowMap).2 ⟨rowMap_injective, by simp⟩

theorem sum_rows_blocks (f : Fin 262144 → EReal) :
    ∑ n : Fin 262144, f n = ∑ g : Fin 2, ∑ j ∈ Finset.range 64, ∑ r : Fin 2048, f (rowOf (64 * g.val + j) r) := by
  rw [← rowMap_bijective.sum_comp f, Fintype.sum_prod_type]
  refine Finset.sum_congr rfl fun g _ => ?_
  rw [Fintype.sum_prod_type, Finset.sum_range]
  rfl

end Cert.SegVar

end
-- ==== Proof.KernelTail.lean ====
/-
  The host operations after the region, and the kernel program's run read as a value.
  The two halves of each result are added; the counts are column 0 and the squared norms column 1 of the augmented sums, the
  number of invalid rows any entry of the third result; then the loss.
-/
import proofs.«401973_j3547642986610_3_alg».proof.Proof.KernelAccum
import proofs.«401973_j3547642986610_3_alg».proof.Proof.Blocks
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.Tail

open Cert.KernelIdeal Cert.KernelIdeal.Gen Cert.SegVar Cert.KernelIdeal.Accum

variable (m : (ℓ : Loc nD τ sig) → Buf (Elt Ideal) ℓ) (ρ : Dev nD → PrngReg)

/-! ## The lines after the region as one function of the region's three results

Each result comes in two halves (one per value of the first grid axis). The lines add the halves, read the counts off
column 0 and the squared norms off column 1 of the augmented sums and the number of invalid rows off one entry of the third
result, form the per-id squared deviation on all 1024 ids, keep the first 1000, and end in the loss. -/

/-- Per id and column, the two halves of the row sums added. -/
def tSums (a2 : FVec Ideal S2x1024x256 .f32) : FVec Ideal S1024x256 .f32 :=
  Host.reduceAdd a2 (constant (F := Ideal) S_ .f32 0x00000000#32) reducesTo_S2x1024x256_S1024x256_d0 h_S_
/-- Per id and augmented column, the two halves added. -/
def tAug (a3 : FVec Ideal S2x1024x128 .f32) : FVec Ideal S1024x128 .f32 :=
  Host.reduceAdd a3 (constant (F := Ideal) S_ .f32 0x00000000#32) reducesTo_S2x1024x128_S1024x128_d0 h_S_
/-- The two halves of the third result added. -/
def tMisc (a4 : FVec Ideal S2x8x128 .f32) : FVec Ideal S8x128 .f32 :=
  Host.reduceAdd a4 (constant (F := Ideal) S_ .f32 0x00000000#32) reducesTo_S2x8x128_S8x128_d0 h_S_
/-- The counts: column 0 of the augmented sums. -/
def tCnt (a3 : FVec Ideal S2x1024x128 .f32) : FVec Ideal S1024 .f32 :=
  shapeCast S1024 (extractStridedSlice S1024x1 ![0, 0] (tAug a3) slices_S1024x128_S1024x1_0_0) shapeCasts_S1024x1_S1024
/-- The sums of squared norms: column 1 of the augmented sums. -/
def tSq (a3 : FVec Ideal S2x1024x128 .f32) : FVec Ideal S1024 .f32 :=
  shapeCast S1024 (extractStridedSlice S1024x1 ![0, 1] (tAug a3) slices_S1024x128_S1024x1_0_1) shapeCasts_S1024x1_S1024
/-- The number of invalid rows: entry (0, 0) of the third result's sum. -/
def tInv (a4 : FVec Ideal S2x8x128 .f32) : FVec Ideal S_ .f32 :=
  shapeCast S_ (extractStridedSlice S1x1 ![0, 0] (tMisc a4) slices_S8x128_S1x1_0_0) shapeCasts_S1x1_S_
/-- The counts, at least one. -/
def tDen (a3 : FVec Ideal S2x1024x128 .f32) : FVec Ideal S1024 .f32 :=
  maximumf (tCnt a3) (broadcastInDim S1024 ![] bcast_S_S1024 (constant (F := Ideal) S_ .f32 0x3F800000#32))
/-- The per-id squared deviation, clamped at zero. -/
def tQ (a2 : FVec Ideal S2x1024x256 .f32) (a3 : FVec Ideal S2x1024x128 .f32) : FVec Ideal S1024 .f32 :=
  maximumf
    (subf (tSq a3)
      (Host.divf
        (Host.reduceAdd (mulf (tSums a2) (tSums a2)) (constant (F := Ideal) S_ .f32 0x00000000#32) reducesTo_S1024x256_S1024_d1 h_S_)
        (tDen a3)))
    (broadcastInDim S1024 ![] bcast_S_S1024 (constant (F := Ideal) S_ .f32 0x00000000#32))
/-- The per-id term of the loss: the mean squared deviation where the id has rows, zero elsewhere. -/
def tTerm (a2 : FVec Ideal S2x1024x256 .f32) (a3 : FVec Ideal S2x1024x128 .f32) : FVec Ideal S1024 .f32 :=
  select (cmpf .ogt (tCnt a3) (broadcastInDim S1024 ![] bcast_S_S1024 (constant (F := Ideal) S_ .f32 0x00000000#32)))
    (Host.divf (tQ a2 a3) (tDen a3))
    (broadcastInDim S1024 ![] bcast_S_S1024 (constant (F := Ideal) S_ .f32 0x00000000#32))
/-- The result of the lines after the region. -/
def tailFn (a2 : FVec Ideal S2x1024x256 .f32) (a3 : FVec Ideal S2x1024x128 .f32) (a4 : FVec Ideal S2x8x128 .f32) :
    FVec Ideal S_ .f32 :=
  Host.divf
    (Host.reduceAdd (extractStridedSlice S1000 ![0] (tTerm a2 a3) slices_S1024_S1000_0)
      (constant (F := Ideal) S_ .f32 0x00000000#32) reducesTo_S1000_S_d0 h_S_)
    (addf
      (Host.reduceAdd
        (uitofp .f32 (cmpf .ogt (extractStridedSlice S1000 ![0] (tCnt a3) slices_S1024_S1000_0)
          (broadcastInDim S1000 ![] bcast_S_S1000 (constant (F := Ideal) S_ .f32 0x00000000#32))))
        (constant (F := Ideal) S_ .f32 0x00000000#32) reducesTo_S1000_S_d0 h_S_)
      (uitofp .f32 (cmpf .ogt (tInv a4) (constant (F := Ideal) S_ .f32 0x00000000#32))))

/-- The lines after the region, run from any buffer contents, leave in the result buffer the function above of what the
    region's three result buffers held. -/
theorem after_tail (W : Valuation τ sig (Elt Ideal)) :
    StableHlo.after (List.flatten [hostOps1 (F := Ideal), hostOps1_1, hostOps1_2]) W (Proc.devRef .tc main_v33)
      = tailFn (W (Proc.devRef .tc main_v1_0)) (W (Proc.devRef .tc main_v1_1)) (W (Proc.devRef .tc main_v1_2)) := by
  simp only [Gen.hostOps1, Gen.hostOps1_1, Gen.hostOps1_2, List.flatten_cons, List.flatten_nil, List.append_nil,
    List.cons_append, List.nil_append]
  after_results_simp
  simp only [StableHlo.TRef.ofBuf, StableHlo.TRef.toBuf, cast_eq]
  unfold tailFn tTerm tQ tDen tCnt tSq tInv tSums tAug tMisc
  rfl

/-! ## The operations of these lines read at an index

Each holds of any operand of its shape. -/

theorem hdivf_apply {s : Shape} {φ : FTy} (a b : FVec Ideal s φ) (i : s.Idx) : Host.divf a b i = Ideal.div (a i) (b i) := rfl
theorem cmpf_ideal_apply {s : Shape} {φ : FTy} (p : CmpFPredicate) (a b : FVec Ideal s φ) (i : s.Idx) :
    cmpf p a b i = Ideal.cmp p (a i) (b i) := rfl
theorem uitofp_ideal_apply {s : Shape} (x : IVec s 1) (i : s.Idx) :
    (uitofp .f32 x : FVec Ideal s .f32) i = (((x i).toNat : ℝ) : EReal) := rfl

/-- A constant spread over the 1024 ids, read at an id. -/
theorem bcast1024_apply (b : BitVec 32) (j : S1024.Idx) :
    broadcastInDim S1024 ![] bcast_S_S1024 (constant (F := Ideal) S_ .f32 b) j = Ideal.ofBits .f32 b :=
  broadcastInDim_apply _ bcast_S_S1024 _ j ix0 (fun a => a.elim0)
/-- A constant spread over the 1000 ids, read at an id. -/
theorem bcast1000_apply (b : BitVec 32) (j : S1000.Idx) :
    broadcastInDim S1000 ![] bcast_S_S1000 (constant (F := Ideal) S_ .f32 b) j = Ideal.ofBits .f32 b :=
  broadcastInDim_apply _ bcast_S_S1000 _ j ix0 (fun a => a.elim0)

/-- The initial value of every sum of these lines is the real zero. -/
theorem init_zero : (constant (F := Ideal) S_ .f32 0x00000000#32) (Shape.Idx.first h_S_) = (0 : EReal) :=
  Ideal.ofBits_zero_f32

/-- The sum over the leading axis of extent 2, for each of the three results' shapes. -/
theorem half256_apply (y : FVec Ideal S2x1024x256 .f32) (k : Fin 1024) (d : Fin 256) :
    Host.reduceAdd y (constant (F := Ideal) S_ .f32 0x00000000#32) reducesTo_S2x1024x256_S1024x256_d0 h_S_ (ix2 k d)
      = ∑ g : Fin 2, y (ix3 g k d) := by
  simp only [Host.reduceAdd, Ideal.hostReduceAdd_def]
  rw [Ideal.hostReduceAdd_single reducesTo_S2x1024x256_S1024x256_d0 (by decide), init_zero, zero_add]
  refine Finset.sum_congr rfl fun g _ => ?_
  exact congrArg y (funext fun a => Fin.ext (by match a with | ⟨0, _⟩ => rfl | ⟨1, _⟩ => rfl | ⟨2, _⟩ => rfl))
theorem half128_apply (y : FVec Ideal S2x1024x128 .f32) (k : Fin 1024) (j : Fin 128) :
    Host.reduceAdd y (constant (F := Ideal) S_ .f32 0x00000000#32) reducesTo_S2x1024x128_S1024x128_d0 h_S_ (ix2 k j)
      = ∑ g : Fin 2, y (ix3 g k j) := by
  simp only [Host.reduceAdd, Ideal.hostReduceAdd_def]
  rw [Ideal.hostReduceAdd_single reducesTo_S2x1024x128_S1024x128_d0 (by decide), init_zero, zero_add]
  refine Finset.sum_congr rfl fun g _ => ?_
  exact congrArg y (funext fun a => Fin.ext (by match a with | ⟨0, _⟩ => rfl | ⟨1, _⟩ => rfl | ⟨2, _⟩ => rfl))
theorem half8_apply (y : FVec Ideal S2x8x128 .f32) (a : Fin 8) (b : Fin 128) :
    Host.reduceAdd y (constant (F := Ideal) S_ .f32 0x00000000#32) reducesTo_S2x8x128_S8x128_d0 h_S_ (ix2 a b)
      = ∑ g : Fin 2, y (ix3 g a b) := by
  simp only [Host.reduceAdd, Ideal.hostReduceAdd_def]
  rw [Ideal.hostReduceAdd_single reducesTo_S2x8x128_S8x128_d0 (by decide), init_zero, zero_add]
  refine Finset.sum_congr rfl fun g _ => ?_
  exact congrArg y (funext fun e => Fin.ext (by match e with | ⟨0, _⟩ => rfl | ⟨1, _⟩ => rfl | ⟨2, _⟩ => rfl))

/-- The sum of the squared entries of a row of a [1024, 256] array. -/
theorem rowsq_apply (y : FVec Ideal S1024x256 .f32) (k : Fin 1024) :
    Host.reduceAdd (mulf y y) (constant (F := Ideal) S_ .f32 0x00000000#32) reducesTo_S1024x256_S1024_d1 h_S_ (ix1 k)
      = ∑ d : Fin 256, y (ix2 k d) * y (ix2 k d) := by
  simp only [Host.reduceAdd, Ideal.hostReduceAdd_def]
  rw [Ideal.hostReduceAdd_single reducesTo_S1024x256_S1024_d1 (by decide), init_zero, zero_add]
  refine Finset.sum_congr rfl fun d _ => ?_
  exact congrArg (fun i => y i * y i) (funext fun a => Fin.ext (by match a with | ⟨0, _⟩ => rfl | ⟨1, _⟩ => rfl))

/-- The sum of all 1000 entries. -/
theorem total1000_apply (y : FVec Ideal S1000 .f32) (i : S_.Idx) :
    Host.reduceAdd y (constant (F := Ideal) S_ .f32 0x00000000#32) reducesTo_S1000_S_d0 h_S_ i = zeroW + ∑ j : SK.Idx, y j := by
  simp only [Host.reduceAdd, Ideal.hostReduceAdd_def]
  exact Ideal.hostReduceAdd_total reducesTo_S1000_S_d0 (fun b => b.elim0) y _ i

/-- Column 0 of a [1024, 128] array as a vector of 1024. -/
theorem col0_apply (y : FVec Ideal S1024x128 .f32) (k : Fin 1024) :
    shapeCast S1024 (extractStridedSlice S1024x1 ![0, 0] y slices_S1024x128_S1024x1_0_0) shapeCasts_S1024x1_S1024 (ix1 k)
      = y (ix2 k 0) := by
  refine (shapeCast_apply _ shapeCasts_S1024x1_S1024 (ix1 k) (ix2 k 0) ?_).trans ?_
  · rw [Shape.rowMajor_val_two, Shape.rowMajor_val_one]
    show k.val * 1 + 0 = k.val
    omega
  refine extractStridedSlice_apply ![0, 0] y slices_S1024x128_S1024x1_0_0 (ix2 k 0) (ix2 k 0) ?_
  intro a
  match a with
  | ⟨0, _⟩ => show k.val = 0 + k.val; omega
  | ⟨1, _⟩ => rfl
/-- Column 1 likewise. -/
theorem col1_apply (y : FVec Ideal S1024x128 .f32) (k : Fin 1024) :
    shapeCast S1024 (extractStridedSlice S1024x1 ![0, 1] y slices_S1024x128_S1024x1_0_1) shapeCasts_S1024x1_S1024 (ix1 k)
      = y (ix2 k 1) := by
  refine (shapeCast_apply _ shapeCasts_S1024x1_S1024 (ix1 k) (ix2 k 0) ?_).trans ?_
  · rw [Shape.rowMajor_val_two, Shape.rowMajor_val_one]
    show k.val * 1 + 0 = k.val
    omega
  refine extractStridedSlice_apply ![0, 1] y slices_S1024x128_S1024x1_0_1 (ix2 k 0) (ix2 k 1) ?_
  intro a
  match a with
  | ⟨0, _⟩ => show k.val = 0 + k.val; omega
  | ⟨1, _⟩ => rfl
/-- Entry (0, 0) of an [8, 128] array as a scalar. -/
theorem entry00_apply (y : FVec Ideal S8x128 .f32) (i : S_.Idx) :
    shapeCast S_ (extractStridedSlice S1x1 ![0, 0] y slices_S8x128_S1x1_0_0) shapeCasts_S1x1_S_ i = y (ix2 0 0) := by
  refine (shapeCast_apply _ shapeCasts_S1x1_S_ i (ix2 0 0) ?_).trans ?_
  · rw [Shape.rowMajor_val_two]
    exact (Shape.rowMajorPi_zero _ _).symm
  refine extractStridedSlice_apply ![0, 0] y slices_S8x128_S1x1_0_0 (ix2 0 0) (ix2 0 0) ?_
  intro a
  match a with
  | ⟨0, _⟩ => rfl
  | ⟨1, _⟩ => rfl
/-- An id below 1000 read through the slice of the 1024 ids. -/
theorem first1000_apply (y : FVec Ideal S1024 .f32) (k : Fin 1000) :
    extractStridedSlice S1000 ![0] y slices_S1024_S1000_0 (ix1 k) = y (ix1 (⟨k.val, by omega⟩ : Fin 1024)) := by
  refine extractStridedSlice_apply ![0] y slices_S1024_S1000_0 (ix1 k) (ix1 (⟨k.val, by omega⟩ : Fin 1024)) ?_
  intro a
  match a with
  | ⟨0, _⟩ => show k.val = 0 + k.val; omega

/-! ## The pieces of the tail read at an index -/

theorem tSums_apply (a2 : FVec Ideal S2x1024x256 .f32) (k : Fin 1024) (d : Fin 256) :
    tSums a2 (ix2 k d) = ∑ g : Fin 2, a2 (ix3 g k d) := half256_apply a2 k d
theorem tCnt_apply (a3 : FVec Ideal S2x1024x128 .f32) (k : Fin 1024) :
    tCnt a3 (ix1 k) = ∑ g : Fin 2, a3 (ix3 g k 0) := (col0_apply (tAug a3) k).trans (half128_apply a3 k 0)
theorem tSq_apply (a3 : FVec Ideal S2x1024x128 .f32) (k : Fin 1024) :
    tSq a3 (ix1 k) = ∑ g : Fin 2, a3 (ix3 g k 1) := (col1_apply (tAug a3) k).trans (half128_apply a3 k 1)
theorem tInv_apply (a4 : FVec Ideal S2x8x128 .f32) (i : S_.Idx) :
    tInv a4 i = ∑ g : Fin 2, a4 (ix3 g 0 0) := (entry00_apply (tMisc a4) i).trans (half8_apply a4 0 0)

theorem tDen_apply (a3 : FVec Ideal S2x1024x128 .f32) (j : S1024.Idx) : tDen a3 j = max (tCnt a3 j) oneW :=
  congrArg (max (tCnt a3 j)) (bcast1024_apply _ j)

/-- The per-id term of the loss at an id, in the counts, the squared norms and the summed rows. -/
theorem tTerm_apply (a2 : FVec Ideal S2x1024x256 .f32) (a3 : FVec Ideal S2x1024x128 .f32) (k : Fin 1024) :
    tTerm a2 a3 (ix1 k) = Scalar.select (Ideal.cmp .ogt (tCnt a3 (ix1 k)) zeroW)
      (Ideal.div
        (max (tSq a3 (ix1 k) - Ideal.div (∑ d : Fin 256, tSums a2 (ix2 k d) * tSums a2 (ix2 k d)) (max (tCnt a3 (ix1 k)) oneW)) zeroW)
        (max (tCnt a3 (ix1 k)) oneW)) zeroW := by
  unfold tTerm tQ
  simp only [select_apply, cmpf_ideal_apply, hdivf_apply, maximumf_apply, subf_apply, rowsq_apply, tDen_apply]
  rw [bcast1024_apply]

/-- The lines after the region end in the loss of the statistics their three operands hold: per id the two halves' counts,
    squared norms and summed rows, and the two halves' count of invalid rows. -/
theorem tailFn_apply (a2 : FVec Ideal S2x1024x256 .f32) (a3 : FVec Ideal S2x1024x128 .f32) (a4 : FVec Ideal S2x8x128 .f32)
    (cnt sq : ℕ → EReal) (sm : ℕ → Fin 256 → EReal) (inv : EReal)
    (h2 : ∀ (k : Fin 1024) (d : Fin 256), ∑ g : Fin 2, a2 (ix3 g k d) = sm k.val d)
    (h3c : ∀ k : Fin 1024, ∑ g : Fin 2, a3 (ix3 g k 0) = cnt k.val)
    (h3s : ∀ k : Fin 1024, ∑ g : Fin 2, a3 (ix3 g k 1) = sq k.val)
    (h4 : ∑ g : Fin 2, a4 (ix3 g 0 0) = inv) (i : S_.Idx) :
    tailFn a2 a3 a4 i
      = lossOf cnt (fun k => max (sq k - Ideal.div (∑ d : Fin 256, sm k d * sm k d) (max (cnt k) oneW)) zeroW)
          (((Ideal.cmp .ogt inv zeroW).toNat : ℝ) : EReal) := by
  have hC : ∀ k : Fin 1024, tCnt a3 (ix1 k) = cnt k.val := fun k => (tCnt_apply a3 k).trans (h3c k)
  have hS : ∀ k : Fin 1024, tSq a3 (ix1 k) = sq k.val := fun k => (tSq_apply a3 k).trans (h3s k)
  have hM : ∀ (k : Fin 1024) (d : Fin 256), tSums a2 (ix2 k d) = sm k.val d := fun k d => (tSums_apply a2 k d).trans (h2 k d)
  have hI : tInv a4 i = inv := (tInv_apply a4 i).trans h4
  have hT : ∀ k : Fin 1024, tTerm a2 a3 (ix1 k) = Scalar.select (Ideal.cmp .ogt (cnt k.val) zeroW)
      (Ideal.div (max (sq k.val - Ideal.div (∑ d : Fin 256, sm k.val d * sm k.val d) (max (cnt k.val) oneW)) zeroW)
        (max (cnt k.val) oneW)) zeroW := by
    intro k
    rw [tTerm_apply, hC, hS]
    simp only [hM]
  have hnum : Host.reduceAdd (extractStridedSlice S1000 ![0] (tTerm a2 a3) slices_S1024_S1000_0)
        (constant (F := Ideal) S_ .f32 0x00000000#32) reducesTo_S1000_S_d0 h_S_ i
      = zeroW + ∑ j : SK.Idx, Scalar.select (Ideal.cmp .ogt (cnt (j 0).val) zeroW)
          (Ideal.div (max (sq (j 0).val - Ideal.div (∑ d : Fin 256, sm (j 0).val d * sm (j 0).val d) (max (cnt (j 0).val) oneW)) zeroW)
            (max (cnt (j 0).val) oneW)) zeroW := by
    refine (total1000_apply _ i).trans (congrArg (zeroW + ·) (Finset.sum_congr rfl fun j _ => ?_))
    obtain ⟨k, rfl⟩ : ∃ k : Fin 1000, j = ix1 k := ⟨j 0, eq_ix1 j⟩
    exact (first1000_apply _ k).trans (hT _)
  have hden : Host.reduceAdd
        (uitofp .f32 (cmpf .ogt (extractStridedSlice S1000 ![0] (tCnt a3) slices_S1024_S1000_0)
          (broadcastInDim S1000 ![] bcast_S_S1000 (constant (F := Ideal) S_ .f32 0x00000000#32))))
        (constant (F := Ideal) S_ .f32 0x00000000#32) reducesTo_S1000_S_d0 h_S_ i
      = zeroW + ∑ j : SK.Idx, (((Ideal.cmp .ogt (cnt (j 0).val) zeroW).toNat : ℝ) : EReal) := by
    refine (total1000_apply _ i).trans (congrArg (zeroW + ·) (Finset.sum_congr rfl fun j _ => ?_))
    obtain ⟨k, rfl⟩ : ∃ k : Fin 1000, j = ix1 k := ⟨j 0, eq_ix1 j⟩
    show (((Ideal.cmp .ogt (extractStridedSlice S1000 ![0] (tCnt a3) slices_S1024_S1000_0 (ix1 k))
        (broadcastInDim S1000 ![] bcast_S_S1000 (constant (F := Ideal) S_ .f32 0x00000000#32) (ix1 k))).toNat : ℝ) : EReal)
      = (((Ideal.cmp .ogt (cnt k.val) zeroW).toNat : ℝ) : EReal)
    rw [first1000_apply, hC, bcast1000_apply]
  unfold tailFn lossOf
  simp only [hdivf_apply, addf_apply, uitofp_ideal_apply, cmpf_ideal_apply]
  rw [hnum, hden, hI]
  rfl

/-! ## The region's three results hold the one-pass statistics, half by half

Pure mathematics: an array whose half `g` holds the sum over the 64 blocks of rows `64 g … 64 g + 63` of each block's
contribution adds, over its two halves, to the statistic over all rows. -/

section Halves
variable (x : SX.Idx → EReal) (ids : SI.Idx → BitVec 32)

/-- The two halves of the summed rows are the sum over all rows. -/
theorem halves_sum (a2 : FVec Ideal S2x1024x256 .f32)
    (h : ∀ (g : Fin 2) (k : Fin 1024) (d : Fin 256), a2 (ix3 g k d) = ∑ j ∈ Finset.range 64, blkSum x ids (64 * g.val + j) k.val d)
    (k : Fin 1024) (d : Fin 256) : ∑ g : Fin 2, a2 (ix3 g k d) = sumK x ids k.val d :=
  (Finset.sum_congr rfl fun g _ => h g k d).trans (sum_rows_blocks fun n => hot ids n k.val * x (ix2 n d)).symm

/-- Column 0 of the augmented sums counts the id's rows. -/
theorem halves_cnt (a3 : FVec Ideal S2x1024x128 .f32)
    (h : ∀ (g : Fin 2) (k : Fin 1024) (j : Fin 128), a3 (ix3 g k j) = ∑ i ∈ Finset.range 64, blkAug x ids (64 * g.val + i) k.val j)
    (k : Fin 1024) : ∑ g : Fin 2, a3 (ix3 g k 0) = cntK ids k.val := by
  refine (Finset.sum_congr rfl fun g _ => h g k 0).trans ?_
  refine Eq.trans ?_ (sum_rows_blocks fun n => hot ids n k.val).symm
  refine Finset.sum_congr rfl fun g _ => Finset.sum_congr rfl fun j _ => Finset.sum_congr rfl fun r _ => ?_
  show hot ids (rowOf (64 * g.val + j) r) k.val * augAt x (rowOf (64 * g.val + j) r) 0 = hot ids (rowOf (64 * g.val + j) r) k.val
  have h00 : (0 : Fin 128).val = 0 := rfl
  unfold augAt
  rw [if_pos h00, mul_one]

/-- Column 1 of the augmented sums adds the squared norms of the id's rows. -/
theorem halves_sq (a3 : FVec Ideal S2x1024x128 .f32)
    (h : ∀ (g : Fin 2) (k : Fin 1024) (j : Fin 128), a3 (ix3 g k j) = ∑ i ∈ Finset.range 64, blkAug x ids (64 * g.val + i) k.val j)
    (k : Fin 1024) : ∑ g : Fin 2, a3 (ix3 g k 1) = sqK x ids k.val := by
  refine (Finset.sum_congr rfl fun g _ => h g k 1).trans ?_
  refine Eq.trans ?_ (sum_rows_blocks fun n => hot ids n k.val * ∑ d : Fin 256, x (ix2 n d) * x (ix2 n d)).symm
  refine Finset.sum_congr rfl fun g _ => Finset.sum_congr rfl fun j _ => Finset.sum_congr rfl fun r _ => ?_
  show hot ids (rowOf (64 * g.val + j) r) k.val * augAt x (rowOf (64 * g.val + j) r) 1
    = hot ids (rowOf (64 * g.val + j) r) k.val * ∑ d : Fin 256, x (ix2 (rowOf (64 * g.val + j) r) d) * x (ix2 (rowOf (64 * g.val + j) r) d)
  have h10 : ¬ (1 : Fin 128).val = 0 := by decide
  have h11 : (1 : Fin 128).val = 1 := rfl
  unfold augAt
  rw [if_neg h10, if_pos h11]

/-- Any entry of the third result counts the invalid rows. -/
theorem halves_inv (a4 : FVec Ideal S2x8x128 .f32)
    (h : ∀ (g : Fin 2) (a : Fin 8) (b : Fin 128), a4 (ix3 g a b) = ∑ i ∈ Finset.range 64, blkInv ids (64 * g.val + i)) :
    ∑ g : Fin 2, a4 (ix3 g 0 0) = invK ids :=
  (Finset.sum_congr rfl fun g _ => h g 0 0).trans (sum_rows_blocks fun n => negW (ids (ix1 n))).symm

end Halves

/-- What the lines after the region leave in the result, as the function above of the region's three result arrays. -/
theorem tail_fn (c : Dev nD) :
    Pipeline.afterTail₀ cfgs (dats m) 0 (V0 m) [hostOps1, hostOps1_1, hostOps1_2] c main_v33
      = tailFn ((dats m 0 c).arrAt 2 cfg0.N) ((dats m 0 c).arrAt 3 cfg0.N) ((dats m 0 c).arrAt 4 cfg0.N) := by
  unfold Pipeline.afterTail₀
  refine (after_tail _).trans ?_
  have e2 := Pipeline.withArrays_arr spec0 launch0.win.arr_inj c (V0 m c) (fun w => (dats m 0 c).arrAt w cfg0.N) 2
  have e3 := Pipeline.withArrays_arr spec0 launch0.win.arr_inj c (V0 m c) (fun w => (dats m 0 c).arrAt w cfg0.N) 3
  have e4 := Pipeline.withArrays_arr spec0 launch0.win.arr_inj c (V0 m c) (fun w => (dats m 0 c).arrAt w cfg0.N) 4
  exact congr (congr (congrArg tailFn e2) e3) e4

/-- What the lines after the region leave in the result: the loss of the one-pass statistics. -/
theorem tail_value (c : Dev nD) :
    Pipeline.afterTail₀ cfgs (dats m) 0 (V0 m) [hostOps1, hostOps1_1, hostOps1_2] c main_v33
      = fun _ => lossOf (cntK (I m c)) (qK (X m c) (I m c)) (hK (I m c)) := by
  rw [tail_fn]
  funext i
  exact tailFn_apply _ _ _ (cntK (I m c)) (sqK (X m c) (I m c)) (sumK (X m c) (I m c)) (invK (I m c))
    (halves_sum (X m c) (I m c) _ (final2 m c)) (halves_cnt (X m c) (I m c) _ (final3 m c))
    (halves_sq (X m c) (I m c) _ (final3 m c)) (halves_inv (I m c) _ (final4 m c)) i

/-- The kernel program's run: the result at the loss of the one-pass statistics of the arguments, the arguments unchanged. -/
theorem run_value : θ_run defs (onTc (τ := τ) (main (F := Ideal))) ⟨m, fun _ => 0, ρ⟩ (fun r => ∀ c : Dev nD,
      r.2.mem ((c.tc : Thread nD τ).loc main_v33) = (fun _ => lossOf (cntK (I m c)) (qK (X m c) (I m c)) (hK (I m c)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v33 (Pipeline.mem_restRefs_of main_v33 (by decide) (by decide))).trans (tail_value m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Tail

end
-- ==== Proof.RefIndex.lean ====
/-
  Where the reference's three scatters and its gather land, at one element.
  The scatters are segment sums: update row `n` goes to the operand row its start index `idx[n, 0]` names, read as a signed
  integer and NOT clamped (a start outside `[0, 1000)` drops the update); along the feature axis the column is kept.
  The gather reads row `idx[n, 0]` of the table, read signed and clamped into `[0, 999]`.
-/
import proofs.«401973_j3547642986610_3_alg».proof.Proof.Gen.ReferenceIdeal
import Idealize.ShloMosaic.Lib.ValueIdx

noncomputable section

open Idealize.ShloMosaic Idealize.ShloMosaic.ValueIdx

namespace Cert.ReferenceIdeal.Index

open Cert.ReferenceIdeal Cert.ReferenceIdeal.Gen

attribute [local instance] Cert.ReferenceIdeal.Gen.facts

/-! ## A scatter's landing place, in general -/

/-- An update lands on operand element `r` exactly when, on every operand axis, the signed start plus the window
    coordinate is `r`'s coordinate: being inside the operand is then automatic, and outside it nothing is hit. -/
theorem resultIdx?_eq_some_iff {s si u : Shape} (D : ScatterDims s si u) {w : Nat} (j : u.Idx) (idx : IVec si w)
    (r : s.Idx) :
    D.resultIdx? j idx = some r ↔ ∀ a, D.start j idx a + (D.window j a : ℤ) = ((r a).val : ℤ) := by
  unfold ScatterDims.resultIdx?
  constructor
  · intro h
    split at h
    · rename_i hc
      intro a
      have h2 : (D.start j idx a + (D.window j a : ℤ)).toNat = (r a).val :=
        congrArg Fin.val (congrFun (Option.some.inj h) a)
      have h3 := (hc a).1
      omega
    · cases h
  · intro h
    have hc : ∀ a, 0 ≤ D.start j idx a + (D.window j a : ℤ) ∧ D.start j idx a + (D.window j a : ℤ) < (s.size a : ℤ) := by
      intro a
      have h4 := (r a).isLt
      rw [h a]
      exact ⟨by omega, by omega⟩
    rw [dif_pos hc]
    refine congrArg some (funext fun a => Fin.ext ?_)
    show (D.start j idx a + (D.window j a : ℤ)).toNat = (r a).val
    rw [h a]
    omega

/-- An operand axis is kept by a scatter exactly when it is not an inserted window axis. -/
theorem mem_sKept_scatter {s si u : Shape} (D : ScatterDims s si u) (a : Fin s.rank) :
    a ∈ D.sKept ↔ a ∉ D.insertedWindowDims := by
  simp [ScatterDims.sKept, Shape.kept, List.mem_filter, List.mem_finRange]

/-! ## The rank-1 scatter: operand `[1000]`, start indices `[262144, 1]`, updates `[262144]` -/

/-- Update `n` reads its start index at `idx[n, 0]`. -/
theorem s1_siIdx (n : Fin 262144) (c : Fin scatter_S1000_S262144x1_S262144_n_0_0_1.scatterDimsToOperandDims.length) :
    scatter_S1000_S262144x1_S262144_n_0_0_1.siIdx (ix1 n) c = ix2 n (0 : Fin 1) := by
  funext b; refine Fin.ext ?_
  match b with
  | ⟨0, _⟩ => rfl
  | ⟨1, _⟩ =>
    show c.val = 0
    exact Nat.lt_one_iff.mp c.isLt

/-- On the operand's one axis the start is the signed start index. -/
theorem s1_start (idx : IVec S262144x1 32) (n : Fin 262144) :
    scatter_S1000_S262144x1_S262144_n_0_0_1.start (ix1 n) idx (0 : Fin 1) = (idx (ix2 n (0 : Fin 1))).toInt := by
  unfold ScatterDims.start
  rw [dif_pos (show (0 : Fin 1) ∈ scatter_S1000_S262144x1_S262144_n_0_0_1.scatterDimsToOperandDims from
    List.mem_singleton.mpr rfl), s1_siIdx]

/-- The operand's one axis is inserted: no window coordinate. -/
theorem s1_window (n : Fin 262144) :
    scatter_S1000_S262144x1_S262144_n_0_0_1.window (ix1 n) (0 : Fin 1) = 0 := by
  have h : (0 : Fin 1) ∉ scatter_S1000_S262144x1_S262144_n_0_0_1.sKept :=
    fun h => (mem_sKept_scatter _ _).1 h (List.mem_singleton.mpr rfl)
  unfold ScatterDims.window
  rw [dif_neg h]

/-- The rank-1 scatter: update `n` lands on operand element `k` exactly when its start index is `k`. -/
theorem scat1_iff (idx : IVec S262144x1 32) (n : Fin 262144) (k : Fin 1000) :
    scatter_S1000_S262144x1_S262144_n_0_0_1.resultIdx? (ix1 n) idx = some (ix1 k)
      ↔ (idx (ix2 n (0 : Fin 1))).toInt = (k.val : ℤ) := by
  rw [resultIdx?_eq_some_iff]
  have e0 : scatter_S1000_S262144x1_S262144_n_0_0_1.start (ix1 n) idx (0 : Fin 1)
      + ((scatter_S1000_S262144x1_S262144_n_0_0_1.window (ix1 n) (0 : Fin 1) : ℕ) : ℤ)
      = (idx (ix2 n (0 : Fin 1))).toInt := by
    rw [s1_start, s1_window] <;> omega
  constructor
  · intro h
    have h0 : scatter_S1000_S262144x1_S262144_n_0_0_1.start (ix1 n) idx (0 : Fin 1)
        + ((scatter_S1000_S262144x1_S262144_n_0_0_1.window (ix1 n) (0 : Fin 1) : ℕ) : ℤ) = (k.val : ℤ) := h (0 : Fin 1)
    rw [e0] at h0
    exact h0
  · intro h
    refine Fin.forall_fin_one.2 ?_
    exact e0.trans h

/-! ## The rank-2 scatter: operand `[1000, 256]`, start indices `[262144, 1]`, updates `[262144, 256]` -/

/-- Update `(n, d)` reads its start index at `idx[n, 0]`, whatever its column. -/
theorem s2_siIdx (n : Fin 262144) (d : Fin 256)
    (c : Fin scatter_S1000x256_S262144x1_S262144x256_1_0_0_1.scatterDimsToOperandDims.length) :
    scatter_S1000x256_S262144x1_S262144x256_1_0_0_1.siIdx (ix2 n d) c = ix2 n (0 : Fin 1) := by
  funext b; refine Fin.ext ?_
  match b with
  | ⟨0, _⟩ => rfl
  | ⟨1, _⟩ =>
    show c.val = 0
    exact Nat.lt_one_iff.mp c.isLt

/-- On the row axis the start is the signed start index. -/
theorem s2_start0 (idx : IVec S262144x1 32) (n : Fin 262144) (d : Fin 256) :
    scatter_S1000x256_S262144x1_S262144x256_1_0_0_1.start (ix2 n d) idx (0 : Fin 2)
      = (idx (ix2 n (0 : Fin 1))).toInt := by
  unfold ScatterDims.start
  rw [dif_pos (show (0 : Fin 2) ∈ scatter_S1000x256_S262144x1_S262144x256_1_0_0_1.scatterDimsToOperandDims from
    List.mem_singleton.mpr rfl), s2_siIdx]

/-- The column axis is not named by the start index: its start is zero. -/
theorem s2_start1 (idx : IVec S262144x1 32) (n : Fin 262144) (d : Fin 256) :
    scatter_S1000x256_S262144x1_S262144x256_1_0_0_1.start (ix2 n d) idx (1 : Fin 2) = 0 := by
  have h : (1 : Fin 2) ∉ scatter_S1000x256_S262144x1_S262144x256_1_0_0_1.scatterDimsToOperandDims :=
    fun h => absurd (List.mem_singleton.mp h) (by decide)
  unfold ScatterDims.start
  rw [dif_neg h]

/-- The row axis is inserted: no window coordinate. -/
theorem s2_window0 (n : Fin 262144) (d : Fin 256) :
    scatter_S1000x256_S262144x1_S262144x256_1_0_0_1.window (ix2 n d) (0 : Fin 2) = 0 := by
  have h : (0 : Fin 2) ∉ scatter_S1000x256_S262144x1_S262144x256_1_0_0_1.sKept :=
    fun h => (mem_sKept_scatter _ _).1 h (List.mem_singleton.mpr rfl)
  unfold ScatterDims.window
  rw [dif_neg h]

/-- The column axis is kept: its window coordinate is the update's column. -/
theorem s2_window1 (n : Fin 262144) (d : Fin 256) :
    scatter_S1000x256_S262144x1_S262144x256_1_0_0_1.window (ix2 n d) (1 : Fin 2) = d.val := by
  have h : (1 : Fin 2) ∈ scatter_S1000x256_S262144x1_S262144x256_1_0_0_1.sKept :=
    (mem_sKept_scatter _ _).2 (fun h => absurd (List.mem_singleton.mp h) (by decide))
  unfold ScatterDims.window
  rw [dif_pos h]
  rfl

/-- The rank-2 scatter: update `(n, d)` lands on operand element `(k, d')` exactly when its start index is `k` and `d = d'`. -/
theorem scat2_iff (idx : IVec S262144x1 32) (n : Fin 262144) (d : Fin 256) (k : Fin 1000) (d' : Fin 256) :
    scatter_S1000x256_S262144x1_S262144x256_1_0_0_1.resultIdx? (ix2 n d) idx = some (ix2 k d')
      ↔ (idx (ix2 n (0 : Fin 1))).toInt = (k.val : ℤ) ∧ d = d' := by
  rw [resultIdx?_eq_some_iff]
  have e0 : scatter_S1000x256_S262144x1_S262144x256_1_0_0_1.start (ix2 n d) idx (0 : Fin 2)
      + ((scatter_S1000x256_S262144x1_S262144x256_1_0_0_1.window (ix2 n d) (0 : Fin 2) : ℕ) : ℤ)
      = (idx (ix2 n (0 : Fin 1))).toInt := by
    rw [s2_start0, s2_window0] <;> omega
  have e1 : scatter_S1000x256_S262144x1_S262144x256_1_0_0_1.start (ix2 n d) idx (1 : Fin 2)
      + ((scatter_S1000x256_S262144x1_S262144x256_1_0_0_1.window (ix2 n d) (1 : Fin 2) : ℕ) : ℤ)
      = (d.val : ℤ) := by
    rw [s2_start1, s2_window1] <;> omega
  constructor
  · intro h
    have h0 : scatter_S1000x256_S262144x1_S262144x256_1_0_0_1.start (ix2 n d) idx (0 : Fin 2)
        + ((scatter_S1000x256_S262144x1_S262144x256_1_0_0_1.window (ix2 n d) (0 : Fin 2) : ℕ) : ℤ) = (k.val : ℤ) := h (0 : Fin 2)
    have h1 : scatter_S1000x256_S262144x1_S262144x256_1_0_0_1.start (ix2 n d) idx (1 : Fin 2)
        + ((scatter_S1000x256_S262144x1_S262144x256_1_0_0_1.window (ix2 n d) (1 : Fin 2) : ℕ) : ℤ) = (d'.val : ℤ) := h (1 : Fin 2)
    rw [e0] at h0
    rw [e1] at h1
    exact ⟨h0, Fin.ext (by omega)⟩
  · rintro ⟨h0, rfl⟩
    refine Fin.forall_fin_two.2 ⟨?_, ?_⟩
    · exact e0.trans h0
    · exact e1

/-! ## The gather: table `[1000, 256]`, start indices `[262144, 1]`, result `[262144, 256]` -/

/-- Result element `(n, d)` reads its start index at `idx[n, 0]`, whatever its column. -/
theorem g_siIdx (n : Fin 262144) (d : Fin 256)
    (c : Fin gather_S1000x256_S262144x1_S262144x256_1_0_n_n_0_1_1256.startIndexMap.length) :
    gather_S1000x256_S262144x1_S262144x256_1_0_n_n_0_1_1256.siIdx (ix2 n d) c = ix2 n (0 : Fin 1) := by
  funext b; refine Fin.ext ?_
  match b with
  | ⟨0, _⟩ => rfl
  | ⟨1, _⟩ =>
    show c.val = 0
    exact Nat.lt_one_iff.mp c.isLt

/-- On the row axis the start is the signed start index clamped to the last row. -/
theorem g_start0 (idx : IVec S262144x1 32) (n : Fin 262144) (d : Fin 256) :
    gather_S1000x256_S262144x1_S262144x256_1_0_n_n_0_1_1256.start (ix2 n d) idx (0 : Fin 2)
      = min (idx (ix2 n (0 : Fin 1))).toInt.toNat 999 := by
  unfold GatherDims.start
  rw [dif_pos (show (0 : Fin 2) ∈ gather_S1000x256_S262144x1_S262144x256_1_0_n_n_0_1_1256.startIndexMap from
    List.mem_singleton.mpr rfl), g_siIdx]
  rfl

/-- The column axis is not named by the start index: its start is zero. -/
theorem g_start1 (idx : IVec S262144x1 32) (n : Fin 262144) (d : Fin 256) :
    gather_S1000x256_S262144x1_S262144x256_1_0_n_n_0_1_1256.start (ix2 n d) idx (1 : Fin 2) = 0 := by
  have h : (1 : Fin 2) ∉ gather_S1000x256_S262144x1_S262144x256_1_0_n_n_0_1_1256.startIndexMap :=
    fun h => absurd (List.mem_singleton.mp h) (by decide)
  unfold GatherDims.start
  rw [dif_neg h]

/-- There is no batching axis. -/
theorem g_batch (n : Fin 262144) (d : Fin 256) (a : Fin 2) :
    gather_S1000x256_S262144x1_S262144x256_1_0_n_n_0_1_1256.batchCoord (ix2 n d) a = 0 :=
  GatherDims.batchCoord_eq_zero _ _ _ List.not_mem_nil

/-- The row axis is collapsed: no offset coordinate. -/
theorem g_off0 (n : Fin 262144) (d : Fin 256) :
    gather_S1000x256_S262144x1_S262144x256_1_0_n_n_0_1_1256.offCoord (ix2 n d) (0 : Fin 2) = 0 :=
  GatherDims.offCoord_eq_zero _ _ _ (fun h => ((GatherDims.mem_sKept _ _).mp h).1 (List.mem_singleton.mpr rfl))

/-- The column axis is kept: its offset coordinate is the result's column. -/
theorem g_off1 (n : Fin 262144) (d : Fin 256) :
    gather_S1000x256_S262144x1_S262144x256_1_0_n_n_0_1_1256.offCoord (ix2 n d) (1 : Fin 2) = d.val := by
  have h : (1 : Fin 2) ∈ gather_S1000x256_S262144x1_S262144x256_1_0_n_n_0_1_1256.sKept :=
    (GatherDims.mem_sKept _ _).mpr ⟨fun h => absurd (List.mem_singleton.mp h) (by decide), List.not_mem_nil⟩
  unfold GatherDims.offCoord
  rw [dif_pos h]
  rfl

/-- The gather reads the table at the clamped start row, same column. -/
theorem gather_at (idx : IVec S262144x1 32) (n : Fin 262144) (d : Fin 256) :
    gather_S1000x256_S262144x1_S262144x256_1_0_n_n_0_1_1256.operandIdx (ix2 n d) idx
      = ix2 (⟨min (idx (ix2 n (0 : Fin 1))).toInt.toNat 999, by omega⟩ : Fin 1000) d := by
  have key : ∀ a : Fin 2,
      gather_S1000x256_S262144x1_S262144x256_1_0_n_n_0_1_1256.start (ix2 n d) idx a
        + gather_S1000x256_S262144x1_S262144x256_1_0_n_n_0_1_1256.batchCoord (ix2 n d) a
        + gather_S1000x256_S262144x1_S262144x256_1_0_n_n_0_1_1256.offCoord (ix2 n d) a
      = ((ix2 (⟨min (idx (ix2 n (0 : Fin 1))).toInt.toNat 999, by omega⟩ : Fin 1000) d) a).val := by
    refine Fin.forall_fin_two.2 ⟨?_, ?_⟩
    · show gather_S1000x256_S262144x1_S262144x256_1_0_n_n_0_1_1256.start (ix2 n d) idx (0 : Fin 2)
        + gather_S1000x256_S262144x1_S262144x256_1_0_n_n_0_1_1256.batchCoord (ix2 n d) (0 : Fin 2)
        + gather_S1000x256_S262144x1_S262144x256_1_0_n_n_0_1_1256.offCoord (ix2 n d) (0 : Fin 2)
        = min (idx (ix2 n (0 : Fin 1))).toInt.toNat 999
      rw [g_start0, g_batch, g_off0] <;> omega
    · show gather_S1000x256_S262144x1_S262144x256_1_0_n_n_0_1_1256.start (ix2 n d) idx (1 : Fin 2)
        + gather_S1000x256_S262144x1_S262144x256_1_0_n_n_0_1_1256.batchCoord (ix2 n d) (1 : Fin 2)
        + gather_S1000x256_S262144x1_S262144x256_1_0_n_n_0_1_1256.offCoord (ix2 n d) (1 : Fin 2)
        = d.val
      rw [g_start1, g_batch, g_off1] <;> omega
  funext a
  exact Fin.ext (key a)

end Cert.ReferenceIdeal.Index

end
-- ==== Proof.RefStats.lean ====
/-
  The reference's first pass read at one element: the per-segment counts, sums and means, and the extra-id flag.
-/
import proofs.«401973_j3547642986610_3_alg».proof.Proof.ReadP
import proofs.«401973_j3547642986610_3_alg».proof.Proof.RefIndex
import proofs.«401973_j3547642986610_3_alg».proof.Proof.Spec
import Idealize.ShloMosaic.Lib.StableHlo.Predicate
import Idealize.ShloMosaic.Lib.ValueIdxRank1
import Idealize.ShloMosaic.PureOps.Ideal.Laws
import Idealize.ShloMosaic.PureOps.Reduce

noncomputable section

open scoped BigOperators
open Idealize.ShloMosaic Idealize.ShloMosaic.ValueIdx

namespace Cert.ReferenceIdeal.Stats

open Cert.ReferenceIdeal Cert.ReferenceIdeal.Gen Cert.ReferenceIdeal.ReadP Cert.SegVar

attribute [local instance] Cert.ReferenceIdeal.Gen.facts

/-! ## Words -/

/-- The signed compare "at least zero" is the bit 1 exactly on the words that read non-negative. -/
theorem cmpi_sge_zero (w : BitVec 32) : IntOp.cmpi .sge w 0#32 = 1#1 ↔ 0 ≤ w.toInt := by
  show BitVec.ofBool ((0#32 : BitVec 32).sle w) = 1#1 ↔ 0 ≤ w.toInt
  have h0 : (0#32 : BitVec 32).toInt = 0 := by decide
  rw [Idealize.ShloMosaic.StableHlo.Predicate.ofBool_eq_one_iff]
  simp only [BitVec.sle, decide_eq_true_eq, h0]

/-- A word that reads non-negative signed reads the same unsigned. -/
theorem toInt_eq_toNat_of_nonneg (w : BitVec 32) (h : 0 ≤ w.toInt) : w.toInt = (w.toNat : ℤ) := by
  have hlt := w.isLt
  rw [BitVec.toInt_eq_toNat_cond] at h ⊢
  split_ifs at h ⊢ with hc
  · rfl
  · omega

/-- A bit converted to an extended real: one at the bit 1, zero at the bit 0. -/
theorem uitofp_bit (b : BitVec 1) :
    FloatOps.uitofp (F := Ideal) .f32 b = (if b = 1#1 then (1 : EReal) else 0) := by
  rcases BitVec.eq_zero_or_eq_one b with rfl | rfl
  · show (((0#1 : BitVec 1).toNat : ℝ) : EReal) = _
    rw [if_neg (by decide)]; simp
  · show (((1#1 : BitVec 1).toNat : ℝ) : EReal) = _
    rw [if_pos rfl]; simp

/-- An or of two bits is 1 exactly when one of them is. -/
theorem ori_eq_one (a b : BitVec 1) : IntOp.ori a b = 1#1 ↔ a = 1#1 ∨ b = 1#1 := by
  rcases BitVec.eq_zero_or_eq_one a with rfl | rfl <;> rcases BitVec.eq_zero_or_eq_one b with rfl | rfl <;> decide

/-- The complement of a bit is 1 exactly when the bit is not. -/
theorem not_eq_one (a : BitVec 1) : ~~~a = 1#1 ↔ ¬a = 1#1 := by
  rcases BitVec.eq_zero_or_eq_one a with rfl | rfl <;> decide

/-- A fold of or from the bit 0 over a set of bits is 1 exactly when some bit of the set is. -/
theorem fold_ori_eq_one {ι : Type} (S : Finset ι) (f : ι → BitVec 1) :
    S.fold IntOp.ori 0#1 f = 1#1 ↔ ∃ i ∈ S, f i = 1#1 := by
  induction S using Finset.cons_induction with
  | empty =>
    rw [Finset.fold_empty]
    exact ⟨fun h => absurd h (by decide), fun ⟨i, hi, _⟩ => by simp at hi⟩
  | cons a S ha ih =>
    rw [Finset.fold_cons, ori_eq_one, ih]
    constructor
    · rintro (h | ⟨i, hi, h⟩)
      · exact ⟨a, Finset.mem_cons_self a S, h⟩
      · exact ⟨i, Finset.mem_cons.2 (Or.inr hi), h⟩
    · rintro ⟨i, hi, h⟩
      rcases Finset.mem_cons.1 hi with rfl | hi
      · exact Or.inl h
      · exact Or.inr ⟨i, hi, h⟩

/-! ## Sums over the indices of a shape, by coordinates -/

/-- A filtered sum over the indices of a rank-1 shape is the filtered sum over the coordinate. -/
theorem sum_filter_idx1 {M : Type} [AddCommMonoid M] {N : ℕ} (P : (⟨1, ![N]⟩ : Shape).Idx → Prop) [DecidablePred P]
    (f : (⟨1, ![N]⟩ : Shape).Idx → M) :
    ∑ j ∈ Finset.univ.filter P, f j = ∑ n ∈ Finset.univ.filter (fun n : Fin N => P (ix1 n)), f (ix1 n) := by
  rw [Finset.sum_filter, Finset.sum_filter]
  exact (Equiv.sum_comp (idxEquiv1 (n := N)).symm (fun j => if P j then f j else 0)).symm

/-- A filtered sum over the indices of a rank-2 shape is the double sum over the coordinates of the guarded terms. -/
theorem sum_filter_idx2 {M : Type} [AddCommMonoid M] {N K : ℕ} (P : (⟨2, ![N, K]⟩ : Shape).Idx → Prop) [DecidablePred P]
    (f : (⟨2, ![N, K]⟩ : Shape).Idx → M) :
    ∑ j ∈ Finset.univ.filter P, f j = ∑ n : Fin N, ∑ c : Fin K, if P (ix2 n c) then f (ix2 n c) else 0 := by
  rw [Finset.sum_filter]
  exact sum_idx2 (fun j => if P j then f j else 0)

/-- The accumulating scatter at one element: the operand's element plus the updates that land on it. -/
theorem scatterAdd_apply {s si su : Shape} {w : ℕ} (d : ScatterDims s si su) (x : FVec Ideal s .f32) (idx : IVec si w)
    (upd : FVec Ideal su .f32) (i : s.Idx) :
    Host.scatterAdd d x idx upd i = x i + ∑ j ∈ Finset.univ.filter (fun j => d.resultIdx? j idx = some i), upd j := by
  show Ideal.hostScatterAdd d x idx upd i = _
  unfold Ideal.hostScatterAdd
  rfl

/-! ## Where the broadcasts read -/

theorem idx5_ix (n : Fin 262144) : idx_main_v5 (ix2 n (0 : Fin 1)) = ix1 n := by
  funext a; match a with | ⟨0, _⟩ => rfl
theorem idx7_ix (n : Fin 262144) : idx_main_v7 (ix2 n (0 : Fin 1)) = ix1 n := by
  funext a; match a with | ⟨0, _⟩ => rfl
theorem idx8_ix (n : Fin 262144) (c : Fin 256) : idx_main_v8 (ix2 n c) = ix2 n (0 : Fin 1) := by
  funext a; match a with | ⟨0, _⟩ => rfl | ⟨1, _⟩ => rfl
theorem idx11_ix (n : Fin 262144) : idx_main_v11 (ix2 n (0 : Fin 1)) = ix1 n := by
  funext a; match a with | ⟨0, _⟩ => rfl
theorem idx15_ix (k : Fin 1000) : idx_main_v15 (ix2 k (0 : Fin 1)) = ix1 k := by
  funext a; match a with | ⟨0, _⟩ => rfl
theorem idx16_ix (k : Fin 1000) (c : Fin 256) : idx_main_v16 (ix2 k c) = ix2 k (0 : Fin 1) := by
  funext a; match a with | ⟨0, _⟩ => rfl | ⟨1, _⟩ => rfl

variable (x0 : FVec Ideal S262144x256 .f32) (x1 : IVec S262144 32)

/-! ## Rows -/

/-- The validity bit of row `n`. -/
theorem v1_apply (n : Fin 262144) : val_main_v1 (F := Ideal) x1 (ix1 n) = 1#1 ↔ valid x1 n := by
  rw [val_main_v1_apply, val_main_v0_apply, val_main_c_apply]
  exact cmpi_sge_zero _
/-- The segment word of row `n`: non-negative, and its value is `segR`. -/
theorem v2_apply (n : Fin 262144) :
    0 ≤ (val_main_v2 (F := Ideal) x1 (ix1 n)).toInt ∧ (val_main_v2 (F := Ideal) x1 (ix1 n)).toInt = (segR x1 n : ℤ) := by
  rw [val_main_v2_apply, val_main_call0_v1_apply, val_main_call0_v0_apply, val_main_c_0_apply]
  by_cases hv : valid x1 n
  · rw [(v1_apply x1 n).2 hv, select_one]
    have e : segR x1 n = (x1 (ix1 n)).toNat := if_pos hv
    rw [e]
    exact ⟨hv, toInt_eq_toNat_of_nonneg _ hv⟩
  · rw [eq_zero_of_ne_one (fun h => hv ((v1_apply x1 n).1 h)), select_zero]
    have e : segR x1 n = 0 := if_neg hv
    rw [e]
    exact ⟨by decide, by decide⟩
/-- The weight of row `n`. -/
theorem v3_apply (n : Fin 262144) : val_main_v3 (F := Ideal) x1 (ix1 n) = wR x1 n := by
  rw [val_main_v3_apply, uitofp_bit]
  exact if_congr (v1_apply x1 n) rfl rfl
/-- The weighted row: element `(n, c)` of the rows times the weight of row `n`. -/
theorem v9_apply (n : Fin 262144) (c : Fin 256) :
    val_main_v9 (F := Ideal) x0 x1 (ix2 n c) = x0 (ix2 n c) * wR x1 n := by
  rw [val_main_v9_apply, val_main_v8_apply, idx8_ix, val_main_v7_apply, idx7_ix, v3_apply]
  rfl

/-! ## Segments -/

theorem v6_apply (k : Fin 1000) : val_main_v6 (F := Ideal) x1 (ix1 k) = cntR x1 k.val := by
  unfold val_main_v6
  rw [scatterAdd_apply, val_main_v4_apply, val_main_cst_apply]
  rw [show (FloatOps.ofBits (F := Ideal) .f32 0x00000000#32 : EReal) = 0 from Ideal.ofBits_zero_f32, zero_add]
  rw [sum_filter_idx1]
  unfold cntR
  refine Finset.sum_congr (Finset.filter_congr fun n _ => ?_) (fun n _ => v3_apply x1 n)
  rw [Index.scat1_iff, val_main_v5_apply, idx5_ix, (v2_apply x1 n).2]
  exact Nat.cast_inj
theorem v12_apply (k : Fin 1000) (d : Fin 256) : val_main_v12 (F := Ideal) x0 x1 (ix2 k d) = sumR x0 x1 k.val d := by
  unfold val_main_v12
  rw [scatterAdd_apply, val_main_v10_apply, val_main_cst_1_apply]
  rw [show (FloatOps.ofBits (F := Ideal) .f32 0x00000000#32 : EReal) = 0 from Ideal.ofBits_zero_f32, zero_add]
  rw [sum_filter_idx2]
  unfold sumR
  rw [Finset.sum_filter]
  refine Finset.sum_congr rfl fun n _ => ?_
  have hP : ∀ c : Fin 256,
      (scatter_S1000x256_S262144x1_S262144x256_1_0_0_1.resultIdx? (ix2 n c) (val_main_v11 (F := Ideal) x1) = some (ix2 k d))
        ↔ (segR x1 n = k.val ∧ c = d) := by
    intro c
    rw [Index.scat2_iff, val_main_v11_apply, idx11_ix, (v2_apply x1 n).2]
    exact and_congr_left' Nat.cast_inj
  simp only [hP, v9_apply x0 x1]
  by_cases hs : segR x1 n = k.val
  · simp only [hs, true_and, if_true]
    rw [Finset.sum_ite_eq' Finset.univ d, if_pos (Finset.mem_univ d)]
  · simp only [hs, false_and, if_false, Finset.sum_const_zero]
theorem v14_apply (k : Fin 1000) : val_main_v14 (F := Ideal) x1 (ix1 k) = max (cntR x1 k.val) oneW := by
  rw [val_main_v14_apply, v6_apply, val_main_v13_apply, val_main_cst_2_apply]
  rfl
theorem v17_apply (k : Fin 1000) (d : Fin 256) : val_main_v17 (F := Ideal) x0 x1 (ix2 k d) = meanR x0 x1 k.val d := by
  rw [val_main_v17_apply, v12_apply, val_main_v16_apply, idx16_ix, val_main_v15_apply, idx15_ix, v14_apply]
  rfl

/-! ## The extra id -/

/-- The or over all rows of the complemented validity bits is 1 exactly when some row is invalid. -/
theorem v37_iff : val_main_v37 (F := Ideal) x1 ix0 = 1#1 ↔ ∃ n : Fin 262144, ¬valid x1 n := by
  unfold val_main_v37
  rw [Host.reduce_eq_fold, val_main_c_9_apply, fold_ori_eq_one]
  constructor
  · rintro ⟨i, _, hi⟩
    obtain ⟨n, rfl⟩ : ∃ n : Fin 262144, i = ix1 n := ⟨i 0, eq_ix1 i⟩
    rw [val_main_v36_apply, not_eq_one] at hi
    exact ⟨n, fun hv => hi ((v1_apply x1 n).2 hv)⟩
  · rintro ⟨n, hn⟩
    refine ⟨ix1 n, Finset.mem_filter.2 ⟨Finset.mem_univ _, funext fun a => a.elim0⟩, ?_⟩
    rw [val_main_v36_apply, not_eq_one]
    exact fun h => hn ((v1_apply x1 n).1 h)
theorem v38_apply : val_main_v38 (F := Ideal) x1 ix0 = hR x1 := by
  rw [val_main_v38_apply, uitofp_bit]
  unfold hR
  split_ifs with h1 h2 h2
  · rfl
  · exact absurd ((v37_iff x1).1 h1) h2
  · exact absurd ((v37_iff x1).2 h2) h1
  · rfl

end Cert.ReferenceIdeal.Stats

end
-- ==== Proof.RefValue.lean ====
/-
  The reference's second pass and its result: each row's weighted squared distance to the mean of its segment, scattered
  to the segments; then the loss.
-/
import proofs.«401973_j3547642986610_3_alg».proof.Proof.RefStats
import Idealize.ShloMosaic.Lib.ValueIdxRank1

noncomputable section

open scoped BigOperators
open Idealize.ShloMosaic Idealize.ShloMosaic.ValueIdx

namespace Cert.ReferenceIdeal.RefValue

open Cert.ReferenceIdeal Cert.ReferenceIdeal.Gen Cert.ReferenceIdeal.ReadP Cert.SegVar Cert.ReferenceIdeal.Stats

attribute [local instance] Cert.ReferenceIdeal.Gen.facts

variable (x0 : FVec Ideal S262144x256 .f32) (x1 : IVec S262144 32)

/-! ## The composed index maps, by coordinates -/

/-- Column `k` of row `n` in the row sum. -/
theorem idx27_coords (n : Fin 262144) (k : Fin 256) : idx_main_v27 (ix1 n) k = ix2 n k := by
  funext a; match a with | ⟨0, _⟩ => rfl | ⟨1, _⟩ => rfl

/-- The start-index column of row `n` is read from entry `n` (the gather's starts). -/
theorem idx23_coords (n : Fin 262144) : idx_main_v23 (ix2 n (0 : Fin 1)) = ix1 n := by
  funext a; match a with | ⟨0, _⟩ => rfl

/-- The start-index column of row `n` is read from entry `n` (the scatter's starts). -/
theorem idx30_coords (n : Fin 262144) : idx_main_v30 (ix2 n (0 : Fin 1)) = ix1 n := by
  funext a; match a with | ⟨0, _⟩ => rfl

/-! ## Words -/

/-- A non-negative word is not below zero. -/
theorem not_slt_zero_of_nonneg {w : BitVec 32} (h : 0 ≤ w.toInt) : IntOp.cmpi .slt w 0#32 = 0#1 := by
  have hb : w.slt 0#32 = false := by
    simp only [BitVec.slt, BitVec.toInt_zero, decide_eq_false_iff_not, not_lt]; exact h
  show BitVec.ofBool (w.slt 0#32) = 0#1
  rw [hb]; rfl

/-- The segment word is never negative, so the wrap-around of negative starts (`+ 1000`) never fires. -/
theorem v22_eq_v2 (n : Fin 262144) : val_main_v22 (F := Ideal) x1 (ix1 n) = val_main_v2 (F := Ideal) x1 (ix1 n) := by
  rw [val_main_v22_apply, val_main_v19_apply, val_main_v18_apply, val_main_c_3_apply,
    RefValue.not_slt_zero_of_nonneg (v2_apply x1 n).1, select_zero]

/-- The gather's start for row `n`, read signed as a natural number, is the row's segment. -/
theorem gatherStart_toNat (n : Fin 262144) : (val_main_v23 (F := Ideal) x1 (ix2 n (0 : Fin 1))).toInt.toNat = segR x1 n := by
  rw [val_main_v23_apply, RefValue.idx23_coords, RefValue.v22_eq_v2, (v2_apply x1 n).2]; rfl

/-- The scatter's start for row `n`, read signed, is the row's segment. -/
theorem scatterStart_toInt (n : Fin 262144) : (val_main_v30 (F := Ideal) x1 (ix2 n (0 : Fin 1))).toInt = (segR x1 n : ℤ) := by
  rw [val_main_v30_apply, RefValue.idx30_coords, (v2_apply x1 n).2]

/-! ## The second pass -/

/-- The gathered mean of row `n`, column `d`: the mean of the row's segment, clamped to the last id. -/
theorem v24_apply (n : Fin 262144) (d : Fin 256) :
    val_main_v24 (F := Ideal) x0 x1 (ix2 n d) = meanR x0 x1 (min (segR x1 n) 999) d := by
  unfold val_main_v24 Host.gather
  rw [Index.gather_at, v17_apply]
  show meanR x0 x1 (min (val_main_v23 (F := Ideal) x1 (ix2 n (0 : Fin 1))).toInt.toNat 999) d = _
  rw [RefValue.gatherStart_toNat]

theorem v28_apply (n : Fin 262144) : val_main_v28 (F := Ideal) x0 x1 (ix1 n) = devR x0 x1 n := by
  rw [val_main_v28_apply, val_main_v27_apply, v3_apply, val_main_cst_5_apply]
  show (Ideal.ofBits .f32 0x00000000#32 + _) * _ = _
  rw [Ideal.ofBits_zero_f32, zero_add]
  unfold devR
  refine congrArg (· * wR x1 n) (Finset.sum_congr rfl fun d _ => ?_)
  rw [RefValue.idx27_coords, val_main_v26_apply, val_main_v25_apply, RefValue.v24_apply]
  rfl

/-! ## The scatter to the segments -/

/-- A filtered sum over a rank-1 index set is the filtered sum over the coordinate. -/
theorem sum_filter_rank1_coord {M : Type*} [AddCommMonoid M] {m : Nat} (p : (⟨1, ![m]⟩ : Shape).Idx → Prop) [DecidablePred p]
    (f : (⟨1, ![m]⟩ : Shape).Idx → M) :
    ∑ j ∈ Finset.univ.filter p, f j = ∑ a ∈ Finset.univ.filter (fun a : Fin m => p (ix1 a)), f (ix1 a) := by
  rw [Finset.sum_filter, Finset.sum_filter]
  exact (Equiv.sum_comp (idxEquiv1 (n := m)).symm (fun j => if p j then f j else 0)).symm

theorem v31_apply (k : Fin 1000) : val_main_v31 (F := Ideal) x0 x1 (ix1 k) = qR x0 x1 k.val := by
  unfold val_main_v31
  simp only [Host.scatterAdd, Ideal.hostScatterAdd_def]
  unfold Ideal.hostScatterAdd
  rw [val_main_v29_apply, val_main_cst_6_apply]
  show Ideal.ofBits .f32 0x00000000#32 + _ = _
  rw [Ideal.ofBits_zero_f32, zero_add, RefValue.sum_filter_rank1_coord]
  unfold qR
  refine Finset.sum_congr (Finset.filter_congr fun n _ => ?_) fun n _ => v28_apply x0 x1 n
  rw [Index.scat1_iff, RefValue.scatterStart_toInt]
  exact Nat.cast_inj

/-- The reference's result is the loss of the two-pass statistics. -/
theorem ref_value : val_main_v45 (F := Ideal) x0 x1 = fun _ => lossOf (cntR x1) (qR x0 x1) (hR x1) := by
  funext i
  rw [val_main_v45_apply, val_main_v44_apply, val_main_v43_apply, val_main_v42_apply, eq_ix0 i, v38_apply,
    val_main_cst_12_apply, val_main_cst_11_apply]
  unfold lossOf
  have h35 : ∀ j : S1000.Idx, val_main_v35 (F := Ideal) x0 x1 j
      = Scalar.select (Ideal.cmp .ogt (cntR x1 (j 0).val) zeroW)
          (Ideal.div (qR x0 x1 (j 0).val) (max (cntR x1 (j 0).val) oneW)) zeroW := by
    intro j
    obtain ⟨a, rfl⟩ : ∃ a, j = ix1 a := ⟨j 0, eq_ix1 j⟩
    rw [val_main_v35_apply, val_main_v33_apply, val_main_v34_apply, v6_apply, v31_apply, v14_apply,
      val_main_v32_apply, val_main_cst_7_apply, val_main_call1_v0_apply, val_main_cst_8_apply]
    rfl
  have h41 : ∀ j : S1000.Idx, val_main_v41 (F := Ideal) x1 j
      = (((Ideal.cmp .ogt (cntR x1 (j 0).val) zeroW).toNat : ℝ) : EReal) := by
    intro j
    obtain ⟨a, rfl⟩ : ∃ a, j = ix1 a := ⟨j 0, eq_ix1 j⟩
    rw [val_main_v41_apply, val_main_v40_apply, v6_apply, val_main_v39_apply, val_main_cst_10_apply]
    rfl
  simp only [h35, h41]
  rfl

end Cert.ReferenceIdeal.RefValue

end
-- ==== Proof.Algebra.lean ====
/-
  The two sets of statistics agree on every id below 1000, for finite rows.
  Counts: a valid row of id `k` is exactly a row of segment `k` with weight one; the other rows of segment 0 have weight zero.
  Squared deviations: with `S_d = Σ_{n∈k} x_nd`, `c = #k`, `N = max c 1` and `m_d = S_d / N`,
    Σ_{n∈k} Σ_d (x_nd − m_d)² = Σ_{n∈k} Σ_d x_nd² − (Σ_d S_d²) / N,
  a sum of squares, so its maximum with zero is itself.
  The extra id: the number of invalid rows is positive exactly when there is one.

  The road: every statistic of either side is rewritten as a plain sum over the finite set `rowsOf ids k` of the valid rows
  of id `k` (`sum_hot` for the one-pass side's 0/1 weights, `sum_seg` for the two-pass side's segment filter and
  weights); finite rows are coercions of reals, the coercion is pushed out of every sum, product and difference, the
  division by `N ≠ 0` becomes a product with `1 / N`, and what is left is the identity above over the reals.
-/
import proofs.«401973_j3547642986610_3_alg».proof.Proof.Spec

noncomputable section

open scoped BigOperators
open Idealize.ShloMosaic Idealize.ShloMosaic.ValueIdx

namespace Cert.SegVar

namespace Alg

/-! ## Sums of reals -/

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Squared deviations from any point `m`, expanded:
    `Σ (a_n − m)² = Σ a_n² − 2 m Σ a_n + #I · m²`. -/
theorem sum_sq_dev {ι : Type*} (I : Finset ι) (a : ι → ℝ) (m : ℝ) :
    ∑ n ∈ I, (a n - m) * (a n - m)
      = ∑ n ∈ I, a n * a n - 2 * m * ∑ n ∈ I, a n + (I.card : ℝ) * (m * m) := by
  classical
  induction I using Finset.induction_on with
  | empty => simp
  | insert b s hb ih =>
    rw [Finset.sum_insert hb, Finset.sum_insert hb, Finset.sum_insert hb, Finset.card_insert_of_notMem hb, ih]
    push_cast; ring

/-- Squared deviations from the mean `S / N`, `S = Σ a_n`, `N = max (#I) 1`: the sum of the squares less `S² / N`.
    With no element every sum is empty; otherwise `N = #I`, the cross term is `2 S² / #I` and `#I · m²` is `S² / #I`. -/
theorem sum_sq_dev_mean {ι : Type*} (I : Finset ι) (a : ι → ℝ) (N : ℝ) (hN : N = max (I.card : ℝ) 1) :
    ∑ n ∈ I, (a n - (∑ n' ∈ I, a n') * (1 / N)) * (a n - (∑ n' ∈ I, a n') * (1 / N))
      = ∑ n ∈ I, a n * a n - (∑ n ∈ I, a n) * (∑ n ∈ I, a n) * (1 / N) := by
  subst hN
  rw [sum_sq_dev]
  rcases Nat.eq_zero_or_pos I.card with h0 | hpos
  · have : I = ∅ := Finset.card_eq_zero.mp h0
    subst this; simp
  · have h1 : (1 : ℝ) ≤ (I.card : ℝ) := by exact_mod_cast hpos
    rw [max_eq_left h1]
    have hne : (I.card : ℝ) ≠ 0 := by positivity
    field_simp; ring

/-- The same summed over a second, finite index `d` (the columns): the two sums are exchanged, the identity is
    used column by column, and the sums are exchanged back. -/
theorem real_core {ι κ : Type*} [Fintype κ] (I : Finset ι) (a : ι → κ → ℝ) (N : ℝ) (hN : N = max (I.card : ℝ) 1) :
    ∑ n ∈ I, ∑ d, (a n d - (∑ n' ∈ I, a n' d) * (1 / N)) * (a n d - (∑ n' ∈ I, a n' d) * (1 / N))
      = (∑ n ∈ I, ∑ d, a n d * a n d) - (∑ d, (∑ n ∈ I, a n d) * (∑ n ∈ I, a n d)) * (1 / N) := by
  refine Finset.sum_comm.trans ?_
  refine (Finset.sum_congr rfl fun d _ => sum_sq_dev_mean I (fun n => a n d) N hN).trans ?_
  simp only [Finset.sum_sub_distrib, ← Finset.sum_mul]
  rw [Finset.sum_comm]

/-- The identity in the extended reals, over real entries: the count `Σ 1` is the real `#I`, so `max (Σ 1) 1` is the
    nonzero real `N` and each division by it is the product with `1 / N`; then both sides are coercions of reals, equal by
    `real_core`, and the right side is a sum of squares, so the maximum with zero is the left argument. -/
theorem ereal_core {ι κ : Type*} [Fintype κ] (I : Finset ι) (a : ι → κ → ℝ) :
    max ((∑ n ∈ I, ∑ d, (a n d : EReal) * (a n d : EReal))
          - Ideal.div (∑ d, (∑ n ∈ I, (a n d : EReal)) * (∑ n ∈ I, (a n d : EReal))) (max (∑ _n ∈ I, (1 : EReal)) 1)) 0
      = ∑ n ∈ I, ∑ d, ((a n d : EReal) - Ideal.div (∑ n' ∈ I, (a n' d : EReal)) (max (∑ _n ∈ I, (1 : EReal)) 1))
          * ((a n d : EReal) - Ideal.div (∑ n' ∈ I, (a n' d : EReal)) (max (∑ _n ∈ I, (1 : EReal)) 1)) := by
  obtain ⟨N, hN⟩ : ∃ N : ℝ, N = max (I.card : ℝ) 1 := ⟨_, rfl⟩
  have hNne : N ≠ 0 := by
    have : (1 : ℝ) ≤ N := by rw [hN]; exact le_max_right _ _
    exact (lt_of_lt_of_le one_pos this).ne'
  have hc : (∑ _n ∈ I, (1 : EReal)) = ((I.card : ℝ) : EReal) := by
    have e : ∑ _n ∈ I, (1 : ℝ) = (I.card : ℝ) := by simp
    have := coe_sum I fun _ => (1 : ℝ)
    rw [e] at this
    exact this.symm
  have hcnt : max (∑ _n ∈ I, (1 : EReal)) 1 = (N : EReal) := by
    rw [hN, EReal.coe_strictMono.monotone.map_max, hc]
    rfl
  simp only [hcnt, Ideal.div_coe hNne]
  simp only [← coe_sum, ← EReal.coe_mul, ← EReal.coe_sub]
  have key := real_core I a N hN
  have nn : (0 : ℝ) ≤ ∑ n ∈ I, ∑ d, (a n d - (∑ n' ∈ I, a n' d) * (1 / N)) * (a n d - (∑ n' ∈ I, a n' d) * (1 / N)) :=
    Finset.sum_nonneg fun _ _ => Finset.sum_nonneg fun _ _ => mul_self_nonneg _
  rw [key] at nn ⊢
  exact max_eq_left (EReal.coe_nonneg.mpr nn)

/-! ## The rows of an id -/

variable (x : SX.Idx → EReal) (ids : SI.Idx → BitVec 32)

/-- The two words as extended reals: `+0.0` is `0` and `1.0` is `1`. -/
theorem zeroW_eq : zeroW = 0 := Ideal.ofBits_zero_f32
theorem oneW_eq : oneW = 1 := IdealRules.sign_bit.ideal_onePat .f32

/-- The rows of id `k`: the valid rows whose id is `k`. -/
def rowsOf (k : ℕ) : Finset (Fin 262144) :=
  Finset.univ.filter fun n => 0 ≤ (ids (ix1 n)).toInt ∧ (ids (ix1 n)).toNat = k

/-- A sum weighted by the rows' weights on id `k` (one on the rows of id `k`, zero elsewhere) is the sum over the rows
    of id `k`. -/
theorem sum_hot (k : ℕ) (g : Fin 262144 → EReal) : ∑ n, hot ids n k * g n = ∑ n ∈ rowsOf ids k, g n := by
  unfold rowsOf
  rw [Finset.sum_filter]
  refine Finset.sum_congr rfl fun n _ => ?_
  unfold hot hotW
  split_ifs <;> simp

/-- A weighted sum over segment `k` is the sum over the rows of id `k`: a valid row is in segment `k` exactly when
    its id is `k`, with weight one; an invalid row (in segment 0) has weight zero, and `a * 0 = 0` for every extended real. -/
theorem sum_seg (k : ℕ) (g : Fin 262144 → EReal) :
    ∑ n ∈ Finset.univ.filter (fun n : Fin 262144 => segR ids n = k), g n * wR ids n = ∑ n ∈ rowsOf ids k, g n := by
  unfold rowsOf
  rw [Finset.sum_filter, Finset.sum_filter]
  refine Finset.sum_congr rfl fun n _ => ?_
  unfold segR wR valid
  by_cases hv : 0 ≤ (ids (ix1 n)).toInt
  · simp [hv]
  · simp [hv]

/-- Each statistic of either side as a plain sum over the rows of id `k`. -/
theorem cntK_eq (k : ℕ) : cntK ids k = ∑ _n ∈ rowsOf ids k, (1 : EReal) := by
  unfold cntK
  rw [← sum_hot ids k fun _ => 1]
  exact Finset.sum_congr rfl fun n _ => (mul_one _).symm

theorem cntR_eq (k : ℕ) : cntR ids k = ∑ _n ∈ rowsOf ids k, (1 : EReal) := by
  unfold cntR
  rw [← sum_seg ids k fun _ => 1]
  exact Finset.sum_congr rfl fun n _ => (one_mul _).symm

theorem sumK_eq (k : ℕ) (d : Fin 256) : sumK x ids k d = ∑ n ∈ rowsOf ids k, x (ix2 n d) :=
  sum_hot ids k fun n => x (ix2 n d)

theorem sumR_eq (k : ℕ) (d : Fin 256) : sumR x ids k d = ∑ n ∈ rowsOf ids k, x (ix2 n d) :=
  sum_seg ids k fun n => x (ix2 n d)

theorem sqK_eq (k : ℕ) : sqK x ids k = ∑ n ∈ rowsOf ids k, ∑ d : Fin 256, x (ix2 n d) * x (ix2 n d) :=
  sum_hot ids k fun n => ∑ d : Fin 256, x (ix2 n d) * x (ix2 n d)

/-- For `k < 1000` a row of segment `k` reads the mean of segment `min k 999 = k`, so the two-pass squared deviation is
    the sum over the rows of id `k` of the squared distance to the mean of `k`. -/
theorem qR_eq (k : ℕ) (hk : k < 1000) :
    qR x ids k = ∑ n ∈ rowsOf ids k, ∑ d : Fin 256,
      (x (ix2 n d) - meanR x ids k d) * (x (ix2 n d) - meanR x ids k d) := by
  unfold qR
  rw [← sum_seg ids k fun n => ∑ d : Fin 256, (x (ix2 n d) - meanR x ids k d) * (x (ix2 n d) - meanR x ids k d)]
  refine Finset.sum_congr rfl fun n hn => ?_
  have hs : segR ids n = k := (Finset.mem_filter.mp hn).2
  unfold devR
  rw [hs, min_eq_left (show k ≤ 999 by omega)]

end Alg

open Alg

variable (x : SX.Idx → EReal) (ids : SI.Idx → BitVec 32)

theorem cnt_agree (k : ℕ) (hk : k < 1000) : cntK ids k = cntR ids k := by
  rw [cntK_eq, cntR_eq]

theorem q_agree (hfin : ∀ i, x i ≠ ⊤ ∧ x i ≠ ⊥) (k : ℕ) (hk : k < 1000) : qK x ids k = qR x ids k := by
  -- finite rows are coercions of reals
  obtain ⟨xr, rfl⟩ : ∃ xr : SX.Idx → ℝ, x = fun i => (xr i : EReal) :=
    ⟨fun i => (x i).toReal, funext fun i => (EReal.coe_toReal (hfin i).1 (hfin i).2).symm⟩
  rw [qR_eq _ ids k hk]
  unfold qK meanR
  simp only [sqK_eq, sumK_eq, sumR_eq, cntK_eq, cntR_eq, zeroW_eq, oneW_eq]
  exact ereal_core (rowsOf ids k) fun n d => xr (ix2 n d)

theorem h_agree : hK ids = hR ids := by
  unfold hK hR
  rw [zeroW_eq]
  have hnn : ∀ n : Fin 262144, (0 : EReal) ≤ negW (ids (ix1 n)) := by
    intro n; unfold negW; split_ifs <;> simp
  by_cases h : ∃ n : Fin 262144, ¬valid ids n
  · -- an invalid row contributes one to a sum of non-negative terms
    obtain ⟨n, hn⟩ := h
    have hn' : ¬ 0 ≤ (ids (ix1 n)).toInt := hn
    have h1 : negW (ids (ix1 n)) = 1 := by unfold negW; rw [if_neg hn']
    have hpos : (0 : EReal) < invK ids := by
      unfold invK
      calc (0 : EReal) < 1 := zero_lt_one
        _ = negW (ids (ix1 n)) := h1.symm
        _ ≤ ∑ m : Fin 262144, negW (ids (ix1 m)) :=
            Finset.single_le_sum (f := fun m : Fin 262144 => negW (ids (ix1 m))) (fun m _ => hnn m) (Finset.mem_univ n)
    rw [if_pos ⟨n, hn⟩]
    simp [Ideal.cmp, hpos]
  · -- no invalid row: every term is zero
    have h0 : invK ids = 0 := by
      unfold invK
      refine Finset.sum_eq_zero fun n _ => ?_
      unfold negW
      rw [if_pos]
      by_contra hc
      exact h ⟨n, hc⟩
    rw [if_neg h, h0]
    simp [Ideal.cmp]

end Cert.SegVar

end
-- ==== Proof.Finite.lean ====
/-
  The precondition says every entry of `x` is finite: `|x i| < +∞` for all `i`, folded by `and`.
-/
import proofs.«401973_j3547642986610_3_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

open Idealize.ShloMosaic Idealize.ShloMosaic.ValueIdx

namespace Cert.SegVar

/-- The word `0x7F800000` denotes `+∞`. -/
theorem finpre_inf_word : Ideal.ofBits .f32 0x7F800000#32 = (⊤ : EReal) := by
  simp [Ideal.ofBits, Ideal.ieee]

/-- An extended real whose absolute value `max a (-a)` is below `+∞` is a real number. -/
theorem finpre_of_abs_lt_top (a : EReal) (h : max a (-a) < ⊤) : a ≠ ⊤ ∧ a ≠ ⊥ := by
  induction a using EReal.rec with
  | bot => simp at h
  | coe r => exact ⟨EReal.coe_ne_top r, EReal.coe_ne_bot r⟩
  | top => simp at h

theorem finite_of_pre [Cert.Pre_finite_inputs.Facts] (x : FVec Ideal Cert.Pre_finite_inputs.S262144x256 .f32)
    (ids : IVec Cert.Pre_finite_inputs.S262144 32)
    (h : Cert.Pre_finite_inputs.fn (F := Ideal) x ids = fun _ => 1#1) (i : Cert.Pre_finite_inputs.S262144x256.Idx) :
    x i ≠ ⊤ ∧ x i ≠ ⊥ := by
  -- the shape of a scalar has exactly one index
  haveI : Subsingleton Cert.Pre_finite_inputs.S_.Idx := ⟨fun a b => funext fun d => d.elim0⟩
  have h0 := congrFun h ValueIdx.ix0
  dsimp only [Cert.Pre_finite_inputs.fn] at h0
  have hi := Host.reduce_andi_all _ _ _ _ _ h0 i
  have hlt : max (x i) (-(x i)) < Ideal.ofBits .f32 0x7F800000#32 := by
    have hi' : BitVec.ofBool (decide (max (x i) (-(x i)) < Ideal.ofBits .f32 0x7F800000#32)) = 1#1 := hi
    by_contra hn
    rw [decide_eq_false hn] at hi'
    exact absurd hi' (by decide)
  rw [finpre_inf_word] at hlt
  exact finpre_of_abs_lt_top (x i) hlt

end Cert.SegVar

end
-- ==== Proof.lean ====
/-
  A per-id grouped mean and squared-deviation loss, computed in one pass over the rows, equals the two-pass reference.

  Rows `x : [262144, 256]`, one integer id per row; a row is valid when its id is non-negative, and the ids `0 … 999`
  are the groups. The loss is the sum over the non-empty groups `k` of `(Σ_{n∈k} ‖x_n − mean_k‖²) / #k`, divided by the
  number of non-empty groups plus one if some row is invalid.

  The kernel keeps, per id, the count of rows, the sum of rows and the sum of squared norms (three one-hot matrix
  products, accumulated over 64 blocks of 2048 rows on each of two halves), and the number of invalid rows; the host
  lines after it add the halves and use
      Σ_{n∈k} ‖x_n − mean_k‖² = Σ_{n∈k} ‖x_n‖² − ‖Σ_{n∈k} x_n‖² / #k,
  clamped at zero. The reference scatters the rows to their groups, gathers each row's group mean back, and scatters
  the squared distances. Over the extended reals, for finite rows, the identity is exact and the clamp does nothing (a sum
  of squares is non-negative); ids of 1000 and above are dropped by both (the kernel's columns 1000 … 1023 are sliced
  away, the reference's scatter drops a row that lands outside the table), negative ids carry weight zero in both.

  The modules: Spec (the mathematics, both sets of statistics and the loss they end in), Algebra (the statistics agree),
  KernelBody / KernelPay / KernelAccum / KernelTail (the kernel's run read as the one-pass statistics), RefIndex /
  RefStats / RefValue (the reference's run read as the two-pass statistics), Blocks (rows as blocks of rows), Finite
  (the precondition says every entry is finite).
-/
import proofs.«401973_j3547642986610_3_alg».proof.Defs
import proofs.«401973_j3547642986610_3_alg».proof.Proof.Gen.Kernel
import proofs.«401973_j3547642986610_3_alg».proof.Proof.Gen.Kernel.Skeleton
import proofs.«401973_j3547642986610_3_alg».proof.Proof.Gen.Kernel.Launch
import proofs.«401973_j3547642986610_3_alg».proof.Proof.Gen.Kernel.Points
import proofs.«401973_j3547642986610_3_alg».proof.Proof.Gen.Kernel.Frame
import proofs.«401973_j3547642986610_3_alg».proof.Proof.Gen.KernelIdeal
import proofs.«401973_j3547642986610_3_alg».proof.Proof.Gen.KernelIdeal.Skeleton
import proofs.«401973_j3547642986610_3_alg».proof.Proof.Gen.KernelIdeal.Launch
import proofs.«401973_j3547642986610_3_alg».proof.Proof.Gen.KernelIdeal.Points
import proofs.«401973_j3547642986610_3_alg».proof.Proof.Gen.KernelIdeal.Frame
import proofs.«401973_j3547642986610_3_alg».proof.Proof.Gen.ReferenceIdeal
import proofs.«401973_j3547642986610_3_alg».proof.Proof.Gen.Pre_finite_inputs
import proofs.«401973_j3547642986610_3_alg».proof.Proof.ReadP
import proofs.«401973_j3547642986610_3_alg».proof.Proof.KernelTail
import proofs.«401973_j3547642986610_3_alg».proof.Proof.RefValue
import proofs.«401973_j3547642986610_3_alg».proof.Proof.Algebra
import proofs.«401973_j3547642986610_3_alg».proof.Proof.Finite
import Idealize.ShloMosaic.Adequacy
import Idealize.ShloMosaic.Init

noncomputable section

namespace Cert.Proof

open Idealize.ShloMosaic Idealize.ShloMosaic.TcCoe Idealize.SL.Sem Cert.SegVar

/-- The three programs run to the end, nothing faulting, their arguments unchanged. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- Both runs end at the loss: the kernel's at the loss of the one-pass statistics, the reference's at the loss of the
    two-pass statistics, of arguments that agree; for finite rows the statistics agree on every id below 1000. -/
theorem algebraic : Cert.algebraic_KernelIdeal_ReferenceIdeal := by
  intro m ρ m' ρ' hpre hagree
  refine ⟨fun c => fun _ => lossOf (cntK (Cert.KernelIdeal.Accum.I m c))
      (qK (Cert.KernelIdeal.Accum.X m c) (Cert.KernelIdeal.Accum.I m c)) (hK (Cert.KernelIdeal.Accum.I m c)),
    Cert.KernelIdeal.Tail.run_value m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v45_eq, Cert.ReferenceIdeal.RefValue.ref_value, (hagree c).1, (hagree c).2]
  have hfin := finite_of_pre _ _ (hpre c)
  funext _
  exact (lossOf_congr (fun k hk => cnt_agree _ k hk) (fun k hk => q_agree _ _ hfin k hk) (h_agree _)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
